-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x12544 : Shape := ⟨2, ![20000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S20000x12544 : S_.BroadcastsInDim S20000x12544 (![] : Fin 0 → Fin S20000x12544.rank)
  reducesTo_S20000x12544_S_d0_1 : S20000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S20000x12544 .f32) (main_arg1 : FVec F S12544x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S20000x12544 .f32 := Host.absf main_arg0
  let main_cst : FVec F S_ .f32 := constant S_ .f32 0x7F800000#32
  let main_v1 : FVec F S20000x12544 .f32 := broadcastInDim S20000x12544 ![] bcast_S_S20000x12544 main_cst
  let main_v2 : IVec S20000x12544 1 := cmpf .olt main_v0 main_v1
  let main_c : IVec S_ 1 := constantI S_ 1 1#1
  let main_v3 : IVec S_ 1 := (fun x v => Host.reduce IntOp.andi x v reducesTo_S20000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S20000x12544 : Shape := ⟨2, ![20000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1x1024 : Shape := ⟨2, ![1, 1024]⟩
abbrev S20000x1024 : Shape := ⟨2, ![20000, 1024]⟩
abbrev S1000x1792 : Shape := ⟨2, ![1000, 1792]⟩
abbrev S1792x1024 : Shape := ⟨2, ![1792, 1024]⟩
abbrev S1000x1024 : Shape := ⟨2, ![1000, 1024]⟩
abbrev S1x4 : Shape := ⟨2, ![1, 4]⟩
abbrev S1x12 : Shape := ⟨2, ![1, 12]⟩
abbrev S20000x4 : Shape := ⟨2, ![20000, 4]⟩
abbrev S20000x12 : Shape := ⟨2, ![20000, 12]⟩
abbrev S2000x1024 : Shape := ⟨2, ![2000, 1024]⟩
abbrev S2000x4 : Shape := ⟨2, ![2000, 4]⟩
abbrev S2000x12 : Shape := ⟨2, ![2000, 12]⟩

abbrev nBuf : Space → Nat
  | .hbm => 20
  | .vmem => 20
  | .smem => 0
  | _ => 0

abbrev bufTy : (tb : Table) → Fin (tcTables nBuf tb) → BufTy
  | .hbm, ⟨0, _⟩ => ⟨S20000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S12544x1024, .bf16⟩
  | .hbm, ⟨10, _⟩ => ⟨S1x1024, .f32⟩
  | .hbm, ⟨11, _⟩ => ⟨S20000x1024, .bf16⟩
  | .hbm, ⟨12, _⟩ => ⟨S1024x1024, .bf16⟩
  | .hbm, ⟨13, _⟩ => ⟨S1024x4, .bf16⟩
  | .hbm, ⟨14, _⟩ => ⟨S1024x12, .bf16⟩
  | .hbm, ⟨15, _⟩ => ⟨S1x1024, .f32⟩
  | .hbm, ⟨16, _⟩ => ⟨S1x4, .f32⟩
  | .hbm, ⟨17, _⟩ => ⟨S1x12, .f32⟩
  | .hbm, ⟨18, _⟩ => ⟨S20000x4, .f32⟩
  | .hbm, ⟨19, _⟩ => ⟨S20000x12, .f32⟩
  | .local _ .vmem, ⟨0, _⟩ => ⟨S1000x1792, .f32⟩
  | .local _ .vmem, ⟨1, _⟩ => ⟨S1000x1792, .f32⟩
  | .local _ .vmem, ⟨2, _⟩ => ⟨S1792x1024, .bf16⟩
  | .local _ .vmem, ⟨3, _⟩ => ⟨S1792x1024, .bf16⟩
  | .local _ .vmem, ⟨4, _⟩ => ⟨S1x1024, .f32⟩
  | .local _ .vmem, ⟨5, _⟩ => ⟨S1000x1024, .bf16⟩
  | .local _ .vmem, ⟨6, _⟩ => ⟨S1000x1024, .bf16⟩
  | .local _ .vmem, ⟨7, _⟩ => ⟨S1000x1024, .f32⟩
  | .local _ .vmem, ⟨8, _⟩ => ⟨S2000x1024, .bf16⟩
  | .local _ .vmem, ⟨9, _⟩ => ⟨S2000x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4, .bf16⟩
  | .local _ .vmem, ⟨13, _⟩ => ⟨S1x4, .f32⟩
  | .local _ .vmem, ⟨14, _⟩ => ⟨S1024x12, .bf16⟩
  | .local _ .vmem, ⟨15, _⟩ => ⟨S1x12, .f32⟩
  | .local _ .vmem, ⟨16, _⟩ => ⟨S2000x4, .f32⟩
  | .local _ .vmem, ⟨17, _⟩ => ⟨S2000x4, .f32⟩
  | .local _ .vmem, ⟨18, _⟩ => ⟨S2000x12, .f32⟩
  | .local _ .vmem, ⟨19, _⟩ => ⟨S2000x12, .f32⟩
  | _, _ => ⟨S20000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨2, ![20, 7], ![false, false]⟩

def k0_cond2 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1000x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x4 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x12 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x12 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x12 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bitsLt_bf16_f32 : FTy.bits .bf16 < FTy.bits .f32
  shapeCasts_S1024_S1x1024 : S1024.ShapeCasts S1x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1000x1792_S1000x1792_0_0 : ∀ a, (![0, 0] : Fin 2 → Nat) a + S1000x1792.size a ≤ S1000x1792.size a
  h_S1000x1792 : 0 < S1000x1792.numel
  inb_S1792x1024_S1792x1024_0_0 : ∀ a, (![0, 0] : Fin 2 → Nat) a + S1792x1024.size a ≤ S1792x1024.size a
  h_S1792x1024 : 0 < S1792x1024.numel
  shapeCasts_S1792x1024_S1792x1024 : S1792x1024.ShapeCasts S1792x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  packedbf16_S1000x1024_S1000x1024_0_0 : (Rect.unit (s := S1000x1024) ![0, 0] S1000x1024.size inb_S1000x1024_S1000x1024_0_0).PackedRows (EltTy.packing .bf16)
  shapeCasts_S4_S1x4 : S4.ShapeCasts S1x4
  shapeCasts_S12_S1x12 : S12.ShapeCasts S1x12
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S2000x1024 : S1x1024.Broadcasts S2000x1024
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S1024x12_S1024x12_0_0 : ∀ a, (![0, 0] : Fin 2 → Nat) a + S1024x12.size a ≤ S1024x12.size a
  h_S1024x12 : 0 < S1024x12.numel
  shapeCasts_S1024x12_S1024x12 : S1024x12.ShapeCasts S1024x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2000x12 : S1x12.Broadcasts S2000x12
  inb_S2000x4_S2000x4_0_0 : ∀ a, (![0, 0] : Fin 2 → Nat) a + S2000x4.size a ≤ S2000x4.size a
  h_S2000x4 : 0 < S2000x4.numel
  inb_S2000x12_S2000x12_0_0 : ∀ a, (![0, 0] : Fin 2 → Nat) a + S2000x12.size a ≤ S2000x12.size a
  h_S2000x12 : 0 < S2000x12.numel
  dot_S1000x1792_S1792x1024_S1000x1024_1_0_0_1_n_n_wf : DotDims.WF S1000x1792 S1792x1024 S1000x1024 [1] [0] [0] [1] [] []
  dot_S2000x1024_S1024x1024_S2000x1024_1_0_0_1_n_n_wf : DotDims.WF S2000x1024 S1024x1024 S2000x1024 [1] [0] [0] [1] [] []
  dot_S2000x1024_S1024x4_S2000x4_1_0_0_1_n_n_wf : DotDims.WF S2000x1024 S1024x4 S2000x4 [1] [0] [0] [1] [] []
  dot_S2000x1024_S1024x12_S2000x12_1_0_0_1_n_n_wf : DotDims.WF S2000x1024 S1024x12 S2000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1792.size a ≤ S20000x12544.size a
  hwx0_0 : ∀ i : grid0.Coords, EltTy.bits .f32 = 32 ∨ (Rect.block (s := S20000x12544) S1000x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1024.size a ≤ S12544x1024.size a
  hwx0_1 : ∀ i : grid0.Coords, EltTy.bits .bf16 = 32 ∨ (Rect.block (s := S12544x1024) S1792x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S20000x1024.size a
  hwx0_3 : ∀ i : grid0.Coords, EltTy.bits .bf16 = 32 ∨ (Rect.block (s := S20000x1024) S1000x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S20000x1024.size a
  hwx1_0 : ∀ i : grid1.Coords, EltTy.bits .bf16 = 32 ∨ (Rect.block (s := S20000x1024) S2000x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4.size a ≤ S1024x4.size a
  hwx1_3 : ∀ i : grid1.Coords, EltTy.bits .bf16 = 32 ∨ (Rect.block (s := S1024x4) S1024x4.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4.size a ≤ S1x4.size a
  hwx1_4 : ∀ i : grid1.Coords, EltTy.bits .f32 = 32 ∨ (Rect.block (s := S1x4) S1x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x12.size a ≤ S1024x12.size a
  hwx1_5 : ∀ i : grid1.Coords, EltTy.bits .bf16 = 32 ∨ (Rect.block (s := S1024x12) S1024x12.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x12.size a ≤ S1x12.size a
  hwx1_6 : ∀ i : grid1.Coords, EltTy.bits .f32 = 32 ∨ (Rect.block (s := S1x12) S1x12.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x4.size a ≤ S20000x4.size a
  hwx1_7 : ∀ i : grid1.Coords, EltTy.bits .f32 = 32 ∨ (Rect.block (s := S20000x4) S2000x4.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x12.size a ≤ S20000x12.size a
  hwx1_8 : ∀ i : grid1.Coords, EltTy.bits .f32 = 32 ∨ (Rect.block (s := S20000x12) S2000x12.size (cc1_transform_8 i) (hinb1_8 i)).WholeWords (EltTy.packing .f32)

variable [Facts₀]

def dot_S1000x1792_S1792x1024_S1000x1024_1_0_0_1_n_n : DotDims S1000x1792 S1792x1024 S1000x1024 where
  lhsContracting := [1]
  rhsContracting := [0]
  lhsNonContracting := [0]
  rhsNonContracting := [1]
  lhsBatch := []
  rhsBatch := []
  wf := dot_S1000x1792_S1792x1024_S1000x1024_1_0_0_1_n_n_wf
def dot_S2000x1024_S1024x1024_S2000x1024_1_0_0_1_n_n : DotDims S2000x1024 S1024x1024 S2000x1024 where
  lhsContracting := [1]
  rhsContracting := [0]
  lhsNonContracting := [0]
  rhsNonContracting := [1]
  lhsBatch := []
  rhsBatch := []
  wf := dot_S2000x1024_S1024x1024_S2000x1024_1_0_0_1_n_n_wf
def dot_S2000x1024_S1024x4_S2000x4_1_0_0_1_n_n : DotDims S2000x1024 S1024x4 S2000x4 where
  lhsContracting := [1]
  rhsContracting := [0]
  lhsNonContracting := [0]
  rhsNonContracting := [1]
  lhsBatch := []
  rhsBatch := []
  wf := dot_S2000x1024_S1024x4_S2000x4_1_0_0_1_n_n_wf
def dot_S2000x1024_S1024x12_S2000x12_1_0_0_1_n_n : DotDims S2000x1024 S1024x12 S2000x12 where
  lhsContracting := [1]
  rhsContracting := [0]
  lhsNonContracting := [0]
  rhsNonContracting := [1]
  lhsBatch := []
  rhsBatch := []
  wf := dot_S2000x1024_S1024x12_S2000x12_1_0_0_1_n_n_wf

abbrev win0_0 : Pipeline.Window sig grid0 :=
  Pipeline.Window.ofSpec (Memref.whole main_arg0) S1000x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1792x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x12.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x12.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9_0) S2000x4.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v9_1) S2000x12.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S20000x12544 : Shape := ⟨2, ![20000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S20000x1024 : Shape := ⟨2, ![20000, 1024]⟩
abbrev S1x1024 : Shape := ⟨2, ![1, 1024]⟩
abbrev S_ : Shape := ⟨0, ![]⟩
abbrev S20000x4 : Shape := ⟨2, ![20000, 4]⟩
abbrev S1x4 : Shape := ⟨2, ![1, 4]⟩
abbrev S20000x12 : Shape := ⟨2, ![20000, 12]⟩
abbrev S1x12 : Shape := ⟨2, ![1, 12]⟩

abbrev nBuf : Space → Nat
  | .hbm => 31
  | .vmem => 0
  | .smem => 0
  | _ => 0

abbrev bufTy : (tb : Table) → Fin (tcTables nBuf tb) → BufTy
  | .hbm, ⟨0, _⟩ => ⟨S20000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S20000x1024, .f32⟩
  | .hbm, ⟨10, _⟩ => ⟨S1x1024, .f32⟩
  | .hbm, ⟨11, _⟩ => ⟨S20000x1024, .f32⟩
  | .hbm, ⟨12, _⟩ => ⟨S20000x1024, .f32⟩
  | .hbm, ⟨13, _⟩ => ⟨S_, .f32⟩
  | .hbm, ⟨14, _⟩ => ⟨S20000x1024, .f32⟩
  | .hbm, ⟨15, _⟩ => ⟨S20000x1024, .f32⟩
  | .hbm, ⟨16, _⟩ => ⟨S20000x1024, .f32⟩
  | .hbm, ⟨17, _⟩ => ⟨S1x1024, .f32⟩
  | .hbm, ⟨18, _⟩ => ⟨S20000x1024, .f32⟩
  | .hbm, ⟨19, _⟩ => ⟨S20000x1024, .f32⟩
  | .hbm, ⟨20, _⟩ => ⟨S_, .f32⟩
  | .hbm, ⟨21, _⟩ => ⟨S20000x1024, .f32⟩
  | .hbm, ⟨22, _⟩ => ⟨S20000x1024, .f32⟩
  | .hbm, ⟨23, _⟩ => ⟨S20000x4, .f32⟩
  | .hbm, ⟨24, _⟩ => ⟨S1x4, .f32⟩
  | .hbm, ⟨25, _⟩ => ⟨S20000x4, .f32⟩
  | .hbm, ⟨26, _⟩ => ⟨S20000x4, .f32⟩
  | .hbm, ⟨27, _⟩ => ⟨S20000x12, .f32⟩
  | .hbm, ⟨28, _⟩ => ⟨S1x12, .f32⟩
  | .hbm, ⟨29, _⟩ => ⟨S20000x12, .f32⟩
  | .hbm, ⟨30, _⟩ => ⟨S20000x12, .f32⟩
  | _, _ => ⟨S20000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S12_S1x12_1 : S12.BroadcastsInDim S1x12 (![1] : Fin 1 → Fin S1x12.rank)
  bcast_S1x12_S20000x12_0_1 : S1x12.BroadcastsInDim S20000x12 (![0, 1] : Fin 2 → Fin S20000x12.rank)
  dot_S20000x12544_S12544x1024_S20000x1024_1_0_0_1_n_n_wf : DotDims.WF S20000x12544 S12544x1024 S20000x1024 [1] [0] [0] [1] [] []
  dot_S20000x1024_S1024x1024_S20000x1024_1_0_0_1_n_n_wf : DotDims.WF S20000x1024 S1024x1024 S20000x1024 [1] [0] [0] [1] [] []
  dot_S20000x1024_S1024x4_S20000x4_1_0_0_1_n_n_wf : DotDims.WF S20000x1024 S1024x4 S20000x4 [1] [0] [0] [1] [] []
  dot_S20000x1024_S1024x12_S20000x12_1_0_0_1_n_n_wf : DotDims.WF S20000x1024 S1024x12 S20000x12 [1] [0] [0] [1] [] []

variable [Facts₀]

def dot_S20000x12544_S12544x1024_S20000x1024_1_0_0_1_n_n : DotDims S20000x12544 S12544x1024 S20000x1024 where
  lhsContracting := [1]
  rhsContracting := [0]
  lhsNonContracting := [0]
  rhsNonContracting := [1]
  lhsBatch := []
  rhsBatch := []
  wf := dot_S20000x12544_S12544x1024_S20000x1024_1_0_0_1_n_n_wf
def dot_S20000x1024_S1024x1024_S20000x1024_1_0_0_1_n_n : DotDims S20000x1024 S1024x1024 S20000x1024 where
  lhsContracting := [1]
  rhsContracting := [0]
  lhsNonContracting := [0]
  rhsNonContracting := [1]
  lhsBatch := []
  rhsBatch := []
  wf := dot_S20000x1024_S1024x1024_S20000x1024_1_0_0_1_n_n_wf
def dot_S20000x1024_S1024x4_S20000x4_1_0_0_1_n_n : DotDims S20000x1024 S1024x4 S20000x4 where
  lhsContracting := [1]
  rhsContracting := [0]
  lhsNonContracting := [0]
  rhsNonContracting := [1]
  lhsBatch := []
  rhsBatch := []
  wf := dot_S20000x1024_S1024x4_S20000x4_1_0_0_1_n_n_wf
def dot_S20000x1024_S1024x12_S20000x12_1_0_0_1_n_n : DotDims S20000x1024 S1024x12 S20000x12 where
  lhsContracting := [1]
  rhsContracting := [0]
  lhsNonContracting := [0]
  rhsNonContracting := [1]
  lhsBatch := []
  rhsBatch := []
  wf := dot_S20000x1024_S1024x12_S20000x12_1_0_0_1_n_n_wf

class Facts : Prop extends Facts₀ where

variable [Facts]
-- ==== Proof.BitsFc1Data.lean ====
/-
  The first layer's region (the K-tiled matrix product with its accumulator), as proof data of its pipeline.
  Grid point t = (i, k), 20 row tiles by 7 tiles of the contracted axis. The body keeps a 1000 x 1024 accumulator in a
  scratch buffer that lives across the 7 points of a row tile: at k = 0 it is set to zero, at every point the product of
  the point's x block (rows of tile i, columns of tile k) with the point's weight block (rows of tile k) is added to it,
  and at k = 6 the accumulator plus the bias row, clamped below at zero, is stored into the output block of row tile i.
  Stated here: each window's block at a point as read off the entry contents; the accumulator after each point, by
  recursion on the point (a reset where k = 0, else the previous point's value carried); the invariant that holds the
  scratch at that value between points; and the pipeline's proof data over them.
-/
import proofs.«169232_j31834297598413_1_alg».proof.Proof.Gen.Kernel.Launch
import proofs.«169232_j31834297598413_1_alg».proof.Proof.Gen.Kernel.Skeleton
import proofs.«169232_j31834297598413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the block
    index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The scratch accumulator after the body at position `n`: the point's product added to zero where the point opens a
    row tile (`n` a multiple of 7), else to what the point before left. -/
def accAt0 (c : Dev nD) : (n : ℕ) → n < cfg0.N → Vec F S1000x1024 .f32
  | 0, hn => k0_pay2 (iblk0 V c 0 ⟨0, hn⟩) (k0_pay1 (F := F)) (iblk0 V c 1 ⟨0, hn⟩)
  | n + 1, hn =>
    if (n + 1) % 7 = 0 then k0_pay2 (iblk0 V c 0 ⟨n + 1, hn⟩) (k0_pay1 (F := F)) (iblk0 V c 1 ⟨n + 1, hn⟩)
    else k0_pay2 (iblk0 V c 0 ⟨n + 1, hn⟩) (accAt0 c n (Nat.lt_of_succ_lt hn)) (iblk0 V c 1 ⟨n + 1, hn⟩)

/-- At a point that opens a row tile the accumulator restarts from zero. -/
theorem accAt0_reset (c : Dev nD) (t : Fin cfg0.N) (h : t.val % 7 = 0) :
    accAt0 V c t.val t.isLt = k0_pay2 (iblk0 V c 0 t) (k0_pay1 (F := F)) (iblk0 V c 1 t) := by
  obtain ⟨n, hn⟩ := t
  cases n with
  | zero => rfl
  | succ n => exact if_pos h

/-- At any other point it adds to what the point before left. -/
theorem accAt0_carry (c : Dev nD) (t : Fin cfg0.N) (h : ¬t.val % 7 = 0) :
    accAt0 V c t.val t.isLt = k0_pay2 (iblk0 V c 0 t) (accAt0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

/-- What the body stores into the output block where it stores (k = 6): the accumulator plus the bias row, clamped. -/
def outAt0 (c : Dev nD) (t : Fin cfg0.N) : Vec F S1000x1024 .bf16 :=
  k0_pay3 (accAt0 V c t.val t.isLt) (iblk0 V c 2 t)

/-! ## The invariant between points -/

/-- The scratch operand: a whole scoped buffer of the kernel's own, passed beside the windows. -/
abbrev scM0 : Memref sig .tc .vmem S1000x1024 .f32 := Memref.whole cc0_scratch0

/-- The core's other scoped buffers that this region stages nothing through (the second region's staging buffers),
    each whole at some contents: the body never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The region's invariant before position `n`: before the first point the scoped rest at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ restS0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ restS0 (F := F) c) ∗ (∃ r, prngReg c r)) := by
  cases n with
  | zero => exact absurd rfl hz
  | succ n => rfl

/-- The class invariant with the scratch as a memref owned at some contents. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

/-! ## The pipeline's proof data -/

/-- The proof data of the first region on core `c`: the arrays as the region finds them; after the body at point `t`
    each input's buffer at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.BitsFc1Body.lean ====
/-
  The first region's body runs and its body obligation. The body has two conditionals on the tile index k of the
  contracted axis: the accumulator is zeroed where k = 0, and the output block is stored where k = 6 (the last tile);
  between them the point's product is added to the accumulator. So a grid point is in one of three cases: the first tile
  of a row tile (zero, then add), a middle tile (add), the last tile (add, then store the output). Each case is run once
  on whole staging buffers; the body obligation at a point picks the case from the point's position modulo 7, hands the
  run the accumulator at what the point before left (at anything where k = 0: it is overwritten), and takes it back at
  this point's value. Where k < 6 the output block's buffer is not touched and is handed back as found.
-/
import proofs.«169232_j31834297598413_1_alg».proof.Proof.BitsFc1Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem hz2 : (![0, 0] : Fin 2 → Nat) = fun _ => 0 := by funext a; fin_cases a <;> rfl

/-- A list of writes whose LAST write (the head) is through the rectangle that is the whole block covers the block. -/
theorem cover_head_whole {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-! ## The two conditions, over the grid -/

/-- "k = 0": the condition of the conditional that zeroes the accumulator, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 7 = 0 :=
  (by decide +kernel : ∀ t : Fin grid0.N, cond0_0 (grid0.coords t) ↔ t.val % 7 = 0)
/-- "k = 6": the condition of the conditional that stores the output block. -/
abbrev cond0_1 (i : grid0.Coords) : Prop := k0_cond2 i = 1#1
theorem hcond0_1 : ∀ t : Fin cfg0.N, cond0_1 (grid0.coords t) ↔ t.val % 7 = 6 :=
  (by decide +kernel : ∀ t : Fin grid0.N, cond0_1 (grid0.coords t) ↔ t.val % 7 = 6)

/-- The inputs are never idle; the output is idle, and not written back, exactly where k < 6. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The body, case by case -/

set_option maxHeartbeats 4000000 in
/-- First tile (k = 0, not the last): the accumulator, at anything, is zeroed and the point's product added. -/
theorem run0_A (c : Dev nD) (E : Set ℕ) (i : grid0.Coords) (arg2 : Memref sig .tc .vmem S1000x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1000x1024 .bf16) (harg5 : arg5.IsWhole) (arg6 : Memref sig .tc .vmem S1000x1024 .f32) (harg6 : arg6.IsWhole) (hc0 : cond0_0 i) (hc1 : ¬cond0_1 i)
    (x0 : Vec F S1000x1792 .f32) (x1 : Vec F S1792x1024 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay2 x0 (k0_pay1 (F := F)) x1)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f0, %hf0, H0⟩, ⟨%f1, %hf1, H1⟩, ⟨%d6, %f6, -, H6⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (cover_head_whole hz2 _ _ _), View.canon_cons_unit_zero hz2]
  simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]

set_option maxHeartbeats 4000000 in
/-- Middle tile (0 < k < 6): the point's product is added to the accumulator the point before left. -/
theorem run0_B (c : Dev nD) (E : Set ℕ) (i : grid0.Coords) (arg2 : Memref sig .tc .vmem S1000x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1000x1024 .bf16) (harg5 : arg5.IsWhole) (arg6 : Memref sig .tc .vmem S1000x1024 .f32) (harg6 : arg6.IsWhole) (hc0 : ¬cond0_0 i) (hc1 : ¬cond0_1 i)
    (x0 : Vec F S1000x1792 .f32) (x1 : Vec F S1792x1024 .bf16) (xs : Vec F S1000x1024 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k0_pay2 x0 xs x1)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f0, %hf0, H0⟩, ⟨%f1, %hf1, H1⟩, ⟨%f6, %hf6, H6⟩, Hk⟩
  subst hf0 hf1 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (cover_head_whole hz2 _ _ _), View.canon_cons_unit_zero hz2]
  simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]

set_option maxHeartbeats 4000000 in
/-- Last tile (k = 6): the point's product is added to the accumulator, and the output block (at anything before) is
    stored: the new accumulator plus the bias row, clamped below at zero. -/
theorem run0_C (c : Dev nD) (E : Set ℕ) (i : grid0.Coords) (arg2 : Memref sig .tc .vmem S1000x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1000x1024 .bf16) (harg5 : arg5.IsWhole) (arg6 : Memref sig .tc .vmem S1000x1024 .f32) (harg6 : arg6.IsWhole) (hc0 : ¬cond0_0 i) (hc1 : cond0_1 i)
    (x0 : Vec F S1000x1792 .f32) (x1 : Vec F S1792x1024 .bf16) (x2 : Vec F S1x1024 .f32) (xs : Vec F S1000x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 xs x1) x2)
            ∗ owns (c : Thread nD τ) arg6 fullShare (k0_pay2 x0 xs x1)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0 hf1 hf2 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (cover_head_whole hz2 _ _ _), View.canon_cons_unit_zero hz2]
    simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]
  iexists _; isplitr
  swap; · iexact H6
  ipureintro
  sl_unfold_words
  rw [View.read_writes_eq_canon _ _ _ (cover_head_whole hz2 _ _ _), View.canon_cons_unit_zero hz2]
  simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]

/-! ## The invariant at the region's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 140 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' memrefs hold their blocks; the position modulo 7 says which case the point is in;
    the invariant hands over the accumulator at what the point before left (at anything at the first point, and it is
    overwritten wherever k = 0), and takes it back at this point's value; where k < 6 the output's buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 140 := lt_of_lt_of_eq t.isLt (show cfg0.N = 140 from N_0)
  by_cases h0 : t.val % 7 = 0
  · have h1 : ¬t.val % 7 = 6 := by omega
    rw [Dat.leavesExact_idle (dat0 V c) 3 t (idleAt0_3 t (fun h => h1 ((hcond0_1 t).mp h))) (noFlush0_3 t (fun h => h1 ((hcond0_1 t).mp h)))]
    rw [accAt0_reset V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, H3⟩
      iapply (run0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨⟨HS0, Hr⟩, Hg⟩, Ho, ⟨%d0, H0⟩, ⟨%d1, H1⟩, ⟨%d2, H2⟩, H3⟩
      iapply (run0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS0]; · iexists _; iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    rw [accAt0_carry V c t h0, PhiS0_castSucc V c t, PhiS0_pos V c _ _ hz]
    by_cases h1 : t.val % 7 = 6
    · rw [show (dat0 V c).leavesExact 3 t = owns (c : Thread nD τ) (st0_3 t) fullShare ((dat0 V c).after 3 t) from by
        unfold Dat.leavesExact; rw [liveAt0_3 t ((hcond0_1 t).mpr h1)], after0_3]
      unfold outAt0
      rw [accAt0_carry V c t h0]
      iintro ⟨⟨⟨HS0, Hr⟩, Hg⟩, Ho, ⟨%d0, H0⟩, ⟨%d1, H1⟩, ⟨%d2, H2⟩, ⟨%d3, H3⟩⟩
      iapply (run0_C c Set.univ (grid0.coords t) _ _ _ _ _ _ _ _ _ _ (fun h => h0 ((hcond0_0 t).mp h)) ((hcond0_1 t).mpr h1) (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      iintro ⟨⟨⟨HS0, Hr⟩, Hg⟩, Ho, ⟨%d0, H0⟩, ⟨%d1, H1⟩, ⟨%d2, H2⟩, H3⟩
      iapply (run0_B c Set.univ (grid0.coords t) _ _ _ _ _ _ _ _ _ _ (fun h => h0 ((hcond0_0 t).mp h)) (fun h => h1 ((hcond0_1 t).mp h)) (iblk0 V c 0 t) (iblk0 V c 1 t) _ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsFc2Data.lean ====
/-
  The second region (second layer and the two heads), as proof data of its pipeline. Grid point t = row tile of 2000
  rows. The body reads the row tile of the hidden activations and the whole weights and bias rows, and stores two output
  blocks: the class scores and the box offsets of the tile's rows. Nothing is kept between points.
-/
import proofs.«169232_j31834297598413_1_alg».proof.Proof.Gen.Kernel.Launch
import proofs.«169232_j31834297598413_1_alg».proof.Proof.Gen.Kernel.Skeleton
import proofs.«169232_j31834297598413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the two output blocks -/

/-- The class scores of the tile's rows. -/
def cls1 (c : Dev nD) (t : Fin cfg1.N) : Vec F S2000x4 .f32 :=
  k1_pay2 (iblk1 V c 0 t) (iblk1 V c 1 t) (iblk1 V c 2 t) (iblk1 V c 3 t) (iblk1 V c 4 t)
/-- The box offsets of the tile's rows. -/
def box1 (c : Dev nD) (t : Fin cfg1.N) : Vec F S2000x12 .f32 :=
  k1_pay3 (iblk1 V c 0 t) (iblk1 V c 1 t) (iblk1 V c 2 t) (iblk1 V c 5 t) (iblk1 V c 6 t)

/-! ## The pipeline's proof data -/

/-- The proof data of the second region on core `c`: the arrays as the region finds them; after the body at point `t`
    each input's buffer at its block and the outputs' at `cls1`, `box1`; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => cls1 V c t
    | ⟨8, _⟩ => box1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = cls1 V c t := by dsimp only [dat1]
theorem after1_8 (c : Dev nD) (t : Fin cfg1.N) : (dat1 V c).after 8 t = box1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Cert.Kernel.Hand

end
-- ==== Proof.BitsFc2Body.lean ====
/-
  The second region's body run: on whole staging buffers, the seven inputs at their blocks and the two outputs at
  anything, the body ends with the inputs as they were and each output block at the value its one whole-block store
  writes: the class scores and the box offsets of the tile's rows as functions of the loaded blocks. From it, the body
  obligation of the pipeline at every grid point.
-/
import proofs.«169232_j31834297598413_1_alg».proof.Proof.BitsFc2Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem hz2 : (![0, 0] : Fin 2 → Nat) = fun _ => 0 := by funext a; fin_cases a <;> rfl

set_option maxHeartbeats 4000000 in
/-- The body on whole staging memrefs. Each output is stored once, through the rectangle that is the whole block, so what
    the buffer holds afterwards is that store's value; each load reads a whole input block. -/
theorem sound_kernel1 (c : Dev nD) (E : Set ℕ) (i : grid1.Coords) (arg1 : Memref sig .tc .vmem S2000x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x4 .bf16) (harg4 : arg4.IsWhole) (arg5 : Memref sig .tc .vmem S1x4 .f32) (harg5 : arg5.IsWhole) (arg6 : Memref sig .tc .vmem S1024x12 .bf16) (harg6 : arg6.IsWhole) (arg7 : Memref sig .tc .vmem S1x12 .f32) (harg7 : arg7.IsWhole) (arg8 : Memref sig .tc .vmem S2000x4 .f32) (harg8 : arg8.IsWhole) (arg9 : Memref sig .tc .vmem S2000x12 .f32) (harg9 : arg9.IsWhole)
    (x0 : Vec F S2000x1024 .bf16) (x1 : Vec F S1024x1024 .bf16) (x2 : Vec F S1x1024 .f32) (x3 : Vec F S1024x4 .bf16) (x4 : Vec F S1x4 .f32) (x5 : Vec F S1024x12 .bf16) (x6 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay2 x0 x1 x2 x3 x4) ∗ owns (c : Thread nD τ) arg9 fullShare (k1_pay3 x0 x1 x2 x5 x6)) -∗ K ⟨⟩))
      ⊢ wp frame (wpE (defs₀ (F := F)) Variants.none c none) E (cc1__fc2_kernel i arg1 harg1 arg2 harg2 arg3 harg3 arg4 harg4 arg5 harg5 arg6 harg6 arg7 harg7 arg8 harg8 arg9 harg9) K := by
  simp only [cc1__fc2_kernel_eq_skeleton]; unfold cc1__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled [⟨_, _⟩] S2000x4.size (by rfl) y), View.canon_unit_zero hz2]
    simp only [View.readAt_eq_ld, View.ld_unit_zero (S := S2000x1024) hz2, View.ld_unit_zero (S := S1024x1024) hz2, View.ld_unit_zero (S := S1x1024) hz2, View.ld_unit_zero (S := S1024x4) hz2, View.ld_unit_zero (S := S1x4) hz2, View.ld_unit_zero (S := S1024x12) hz2, View.ld_unit_zero (S := S1x12) hz2]
  · iexists _; isplitr
    swap; · iexact H8
    ipureintro
    rw [View.read_writes_eq_canon _ _ _ (fun y => View.cover_of_tiled [⟨_, _⟩] S2000x12.size (by rfl) y), View.canon_unit_zero hz2]
    simp only [View.readAt_eq_ld, View.ld_unit_zero (S := S2000x1024) hz2, View.ld_unit_zero (S := S1024x1024) hz2, View.ld_unit_zero (S := S1x1024) hz2, View.ld_unit_zero (S := S1024x4) hz2, View.ld_unit_zero (S := S1x4) hz2, View.ld_unit_zero (S := S1024x12) hz2, View.ld_unit_zero (S := S1x12) hz2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsMainRun.lean ====
/-
  The whole run of the two-region program: the buffer contents at each boundary of @main as a fold from the launch
  memory (a host stretch applies its operations; a region leaves its arrays at what its write-backs fold to and every
  other buffer as entered), the two regions as segments around the thread state "every unscoped buffer at the boundary's
  contents, the generator register at some state, nothing owed", and the run: every weakly fair execution terminates and
  ends with every unscoped buffer at the last boundary's contents. The frame (each argument ends as launched) reads the
  arguments off that: no host operation and no region writes one.
-/
import proofs.«169232_j31834297598413_1_alg».proof.Proof.BitsFc1Body
import proofs.«169232_j31834297598413_1_alg».proof.Proof.BitsFc2Body
import proofs.«169232_j31834297598413_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. Its arrays are split
    out of the unscoped buffers and put back at the exit contents; the generator register and the scoped rest go into the
    region's invariant (which names the accumulator between points) and come back; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (F := F) (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    have h := hout0 (F := F) (V1 m) c
    unfold Pipeline.ΦA at h
    rw [Pipeline.ownSems0_none, show (pdats m 0 c).Φ (Fin.last _) = (dat0 (V1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any `F`: each argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

end Cert.Kernel.Hand

end
-- ==== Proof.Fc1Data.lean ====
/-
  The first layer's region (the K-tiled matrix product with its accumulator), as proof data of its pipeline.
  Grid point t = (i, k), 20 row tiles by 7 tiles of the contracted axis. The body keeps a 1000 x 1024 accumulator in a
  scratch buffer that lives across the 7 points of a row tile: at k = 0 it is set to zero, at every point the product of
  the point's x block (rows of tile i, columns of tile k) with the point's weight block (rows of tile k) is added to it,
  and at k = 6 the accumulator plus the bias row, clamped below at zero, is stored into the output block of row tile i.
  Stated here: each window's block at a point as read off the entry contents; the accumulator after each point, by
  recursion on the point (a reset where k = 0, else the previous point's value carried); the invariant that holds the
  scratch at that value between points; and the pipeline's proof data over them.
-/
import proofs.«169232_j31834297598413_1_alg».proof.Proof.Gen.KernelIdeal.Launch
import proofs.«169232_j31834297598413_1_alg».proof.Proof.Gen.KernelIdeal.Skeleton
import proofs.«169232_j31834297598413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the block
    index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The scratch accumulator after the body at position `n`: the point's product added to zero where the point opens a
    row tile (`n` a multiple of 7), else to what the point before left. -/
def accAt0 (c : Dev nD) : (n : ℕ) → n < cfg0.N → Vec F S1000x1024 .f32
  | 0, hn => k0_pay2 (iblk0 V c 0 ⟨0, hn⟩) (k0_pay1 (F := F)) (iblk0 V c 1 ⟨0, hn⟩)
  | n + 1, hn =>
    if (n + 1) % 7 = 0 then k0_pay2 (iblk0 V c 0 ⟨n + 1, hn⟩) (k0_pay1 (F := F)) (iblk0 V c 1 ⟨n + 1, hn⟩)
    else k0_pay2 (iblk0 V c 0 ⟨n + 1, hn⟩) (accAt0 c n (Nat.lt_of_succ_lt hn)) (iblk0 V c 1 ⟨n + 1, hn⟩)

/-- At a point that opens a row tile the accumulator restarts from zero. -/
theorem accAt0_reset (c : Dev nD) (t : Fin cfg0.N) (h : t.val % 7 = 0) :
    accAt0 V c t.val t.isLt = k0_pay2 (iblk0 V c 0 t) (k0_pay1 (F := F)) (iblk0 V c 1 t) := by
  obtain ⟨n, hn⟩ := t
  cases n with
  | zero => rfl
  | succ n => exact if_pos h

/-- At any other point it adds to what the point before left. -/
theorem accAt0_carry (c : Dev nD) (t : Fin cfg0.N) (h : ¬t.val % 7 = 0) :
    accAt0 V c t.val t.isLt = k0_pay2 (iblk0 V c 0 t) (accAt0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

/-- What the body stores into the output block where it stores (k = 6): the accumulator plus the bias row, clamped. -/
def outAt0 (c : Dev nD) (t : Fin cfg0.N) : Vec F S1000x1024 .bf16 :=
  k0_pay3 (accAt0 V c t.val t.isLt) (iblk0 V c 2 t)

/-! ## The invariant between points -/

/-- The scratch operand: a whole scoped buffer of the kernel's own, passed beside the windows. -/
abbrev scM0 : Memref sig .tc .vmem S1000x1024 .f32 := Memref.whole cc0_scratch0

/-- The core's other scoped buffers that this region stages nothing through (the second region's staging buffers),
    each whole at some contents: the body never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The region's invariant before position `n`: before the first point the scoped rest at anything; afterwards the
    accumulator at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ restS0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ restS0 (F := F) c) ∗ (∃ r, prngReg c r)) := by
  cases n with
  | zero => exact absurd rfl hz
  | succ n => rfl

/-- The class invariant with the scratch as a memref owned at some contents. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

/-! ## The pipeline's proof data -/

/-- The proof data of the first region on core `c`: the arrays as the region finds them; after the body at point `t`
    each input's buffer at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.Fc1Body.lean ====
/-
  The first region's body runs and its body obligation. The body has two conditionals on the tile index k of the
  contracted axis: the accumulator is zeroed where k = 0, and the output block is stored where k = 6 (the last tile);
  between them the point's product is added to the accumulator. So a grid point is in one of three cases: the first tile
  of a row tile (zero, then add), a middle tile (add), the last tile (add, then store the output). Each case is run once
  on whole staging buffers; the body obligation at a point picks the case from the point's position modulo 7, hands the
  run the accumulator at what the point before left (at anything where k = 0: it is overwritten), and takes it back at
  this point's value. Where k < 6 the output block's buffer is not touched and is handed back as found.
-/
import proofs.«169232_j31834297598413_1_alg».proof.Proof.Fc1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem hz2 : (![0, 0] : Fin 2 → Nat) = fun _ => 0 := by funext a; fin_cases a <;> rfl

/-- A list of writes whose LAST write (the head) is through the rectangle that is the whole block covers the block. -/
theorem cover_head_whole {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self, by show y ∈ (Rect.whole S).set; rw [Rect.set_whole]; exact Finset.mem_univ y⟩

/-! ## The two conditions, over the grid -/

/-- "k = 0": the condition of the conditional that zeroes the accumulator, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 7 = 0 :=
  (by decide +kernel : ∀ t : Fin grid0.N, cond0_0 (grid0.coords t) ↔ t.val % 7 = 0)
/-- "k = 6": the condition of the conditional that stores the output block. -/
abbrev cond0_1 (i : grid0.Coords) : Prop := k0_cond2 i = 1#1
theorem hcond0_1 : ∀ t : Fin cfg0.N, cond0_1 (grid0.coords t) ↔ t.val % 7 = 6 :=
  (by decide +kernel : ∀ t : Fin grid0.N, cond0_1 (grid0.coords t) ↔ t.val % 7 = 6)

/-- The inputs are never idle; the output is idle, and not written back, exactly where k < 6. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The body, case by case -/

set_option maxHeartbeats 4000000 in
/-- First tile (k = 0, not the last): the accumulator, at anything, is zeroed and the point's product added. -/
theorem run0_A (c : Dev nD) (E : Set ℕ) (i : grid0.Coords) (arg2 : Memref sig .tc .vmem S1000x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1000x1024 .bf16) (harg5 : arg5.IsWhole) (arg6 : Memref sig .tc .vmem S1000x1024 .f32) (harg6 : arg6.IsWhole) (hc0 : cond0_0 i) (hc1 : ¬cond0_1 i)
    (x0 : Vec F S1000x1792 .f32) (x1 : Vec F S1792x1024 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay2 x0 (k0_pay1 (F := F)) x1)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f0, %hf0, H0⟩, ⟨%f1, %hf1, H1⟩, ⟨%d6, %f6, -, H6⟩, Hk⟩
  subst hf0 hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (cover_head_whole hz2 _ _ _), View.canon_cons_unit_zero hz2]
  simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]

set_option maxHeartbeats 4000000 in
/-- Middle tile (0 < k < 6): the point's product is added to the accumulator the point before left. -/
theorem run0_B (c : Dev nD) (E : Set ℕ) (i : grid0.Coords) (arg2 : Memref sig .tc .vmem S1000x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1000x1024 .bf16) (harg5 : arg5.IsWhole) (arg6 : Memref sig .tc .vmem S1000x1024 .f32) (harg6 : arg6.IsWhole) (hc0 : ¬cond0_0 i) (hc1 : ¬cond0_1 i)
    (x0 : Vec F S1000x1792 .f32) (x1 : Vec F S1792x1024 .bf16) (xs : Vec F S1000x1024 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k0_pay2 x0 xs x1)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f0, %hf0, H0⟩, ⟨%f1, %hf1, H1⟩, ⟨%f6, %hf6, H6⟩, Hk⟩
  subst hf0 hf1 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (cover_head_whole hz2 _ _ _), View.canon_cons_unit_zero hz2]
  simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]

set_option maxHeartbeats 4000000 in
/-- Last tile (k = 6): the point's product is added to the accumulator, and the output block (at anything before) is
    stored: the new accumulator plus the bias row, clamped below at zero. -/
theorem run0_C (c : Dev nD) (E : Set ℕ) (i : grid0.Coords) (arg2 : Memref sig .tc .vmem S1000x1792 .f32) (harg2 : arg2.IsWhole) (arg3 : Memref sig .tc .vmem S1792x1024 .bf16) (harg3 : arg3.IsWhole) (arg4 : Memref sig .tc .vmem S1x1024 .f32) (harg4 : arg4.IsWhole) (arg5 : Memref sig .tc .vmem S1000x1024 .bf16) (harg5 : arg5.IsWhole) (arg6 : Memref sig .tc .vmem S1000x1024 .f32) (harg6 : arg6.IsWhole) (hc0 : ¬cond0_0 i) (hc1 : cond0_1 i)
    (x0 : Vec F S1000x1792 .f32) (x1 : Vec F S1792x1024 .bf16) (x2 : Vec F S1x1024 .f32) (xs : Vec F S1000x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 xs x1) x2)
            ∗ owns (c : Thread nD τ) arg6 fullShare (k0_pay2 x0 xs x1)) -∗ K ⟨⟩))
      ⊢ wp frame (wpE (defs₀ (F := F)) Variants.none c none) E (cc0__fc1_kernel i arg2 harg2 arg3 harg3 arg4 harg4 arg5 harg5 arg6 harg6) K := by
  simp only [cc0__fc1_kernel_eq_skeleton]; unfold cc0__fc1_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0 hf1 hf2 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (cover_head_whole hz2 _ _ _), View.canon_cons_unit_zero hz2]
    simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]
  iexists _; isplitr
  swap; · iexact H6
  ipureintro
  sl_unfold_words
  rw [View.read_writes_eq_canon _ _ _ (cover_head_whole hz2 _ _ _), View.canon_cons_unit_zero hz2]
  simp only [View.readAt_eq_ld, View.ld_unit_zero (S := S1000x1792) hz2, View.ld_unit_zero (S := S1792x1024) hz2, View.ld_unit_zero (S := S1x1024) hz2, View.ld_unit_zero (S := S1000x1024) hz2, View.readCov_unit_zero (S := S1000x1024) _ hz2]

/-! ## The invariant at the region's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 140 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' memrefs hold their blocks; the position modulo 7 says which case the point is in;
    the invariant hands over the accumulator at what the point before left (at anything at the first point, and it is
    overwritten wherever k = 0), and takes it back at this point's value; where k < 6 the output's buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 140 := lt_of_lt_of_eq t.isLt (show cfg0.N = 140 from N_0)
  by_cases h0 : t.val % 7 = 0
  · have h1 : ¬t.val % 7 = 6 := by omega
    rw [Dat.leavesExact_idle (dat0 V c) 3 t (idleAt0_3 t (fun h => h1 ((hcond0_1 t).mp h))) (noFlush0_3 t (fun h => h1 ((hcond0_1 t).mp h)))]
    rw [accAt0_reset V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, H3⟩
      iapply (run0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨⟨HS0, Hr⟩, Hg⟩, Ho, ⟨%d0, H0⟩, ⟨%d1, H1⟩, ⟨%d2, H2⟩, H3⟩
      iapply (run0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS0]; · iexists _; iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
  · have hz : t.val ≠ 0 := fun e => h0 (by rw [e])
    rw [accAt0_carry V c t h0, PhiS0_castSucc V c t, PhiS0_pos V c _ _ hz]
    by_cases h1 : t.val % 7 = 6
    · rw [show (dat0 V c).leavesExact 3 t = owns (c : Thread nD τ) (st0_3 t) fullShare ((dat0 V c).after 3 t) from by
        unfold Dat.leavesExact; rw [liveAt0_3 t ((hcond0_1 t).mpr h1)], after0_3]
      unfold outAt0
      rw [accAt0_carry V c t h0]
      iintro ⟨⟨⟨HS0, Hr⟩, Hg⟩, Ho, ⟨%d0, H0⟩, ⟨%d1, H1⟩, ⟨%d2, H2⟩, ⟨%d3, H3⟩⟩
      iapply (run0_C c Set.univ (grid0.coords t) _ _ _ _ _ _ _ _ _ _ (fun h => h0 ((hcond0_0 t).mp h)) ((hcond0_1 t).mpr h1) (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      iintro ⟨⟨⟨HS0, Hr⟩, Hg⟩, Ho, ⟨%d0, H0⟩, ⟨%d1, H1⟩, ⟨%d2, H2⟩, H3⟩
      iapply (run0_B c Set.univ (grid0.coords t) _ _ _ _ _ _ _ _ _ _ (fun h => h0 ((hcond0_0 t).mp h)) (fun h => h1 ((hcond0_1 t).mp h)) (iblk0 V c 0 t) (iblk0 V c 1 t) _ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Fc2Data.lean ====
/-
  The second region (second layer and the two heads), as proof data of its pipeline. Grid point t = row tile of 2000
  rows. The body reads the row tile of the hidden activations and the whole weights and bias rows, and stores two output
  blocks: the class scores and the box offsets of the tile's rows. Nothing is kept between points.
-/
import proofs.«169232_j31834297598413_1_alg».proof.Proof.Gen.KernelIdeal.Launch
import proofs.«169232_j31834297598413_1_alg».proof.Proof.Gen.KernelIdeal.Skeleton
import proofs.«169232_j31834297598413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the two output blocks -/

/-- The class scores of the tile's rows. -/
def cls1 (c : Dev nD) (t : Fin cfg1.N) : Vec F S2000x4 .f32 :=
  k1_pay2 (iblk1 V c 0 t) (iblk1 V c 1 t) (iblk1 V c 2 t) (iblk1 V c 3 t) (iblk1 V c 4 t)
/-- The box offsets of the tile's rows. -/
def box1 (c : Dev nD) (t : Fin cfg1.N) : Vec F S2000x12 .f32 :=
  k1_pay3 (iblk1 V c 0 t) (iblk1 V c 1 t) (iblk1 V c 2 t) (iblk1 V c 5 t) (iblk1 V c 6 t)

/-! ## The pipeline's proof data -/

/-- The proof data of the second region on core `c`: the arrays as the region finds them; after the body at point `t`
    each input's buffer at its block and the outputs' at `cls1`, `box1`; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => cls1 V c t
    | ⟨8, _⟩ => box1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = cls1 V c t := by dsimp only [dat1]
theorem after1_8 (c : Dev nD) (t : Fin cfg1.N) : (dat1 V c).after 8 t = box1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Cert.KernelIdeal.Hand

end
-- ==== Proof.Fc2Body.lean ====
/-
  The second region's body run: on whole staging buffers, the seven inputs at their blocks and the two outputs at
  anything, the body ends with the inputs as they were and each output block at the value its one whole-block store
  writes: the class scores and the box offsets of the tile's rows as functions of the loaded blocks. From it, the body
  obligation of the pipeline at every grid point.
-/
import proofs.«169232_j31834297598413_1_alg».proof.Proof.Fc2Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

theorem hz2 : (![0, 0] : Fin 2 → Nat) = fun _ => 0 := by funext a; fin_cases a <;> rfl

set_option maxHeartbeats 4000000 in
/-- The body on whole staging memrefs. Each output is stored once, through the rectangle that is the whole block, so what
    the buffer holds afterwards is that store's value; each load reads a whole input block. -/
theorem sound_kernel1 (c : Dev nD) (E : Set ℕ) (i : grid1.Coords) (arg1 : Memref sig .tc .vmem S2000x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x4 .bf16) (harg4 : arg4.IsWhole) (arg5 : Memref sig .tc .vmem S1x4 .f32) (harg5 : arg5.IsWhole) (arg6 : Memref sig .tc .vmem S1024x12 .bf16) (harg6 : arg6.IsWhole) (arg7 : Memref sig .tc .vmem S1x12 .f32) (harg7 : arg7.IsWhole) (arg8 : Memref sig .tc .vmem S2000x4 .f32) (harg8 : arg8.IsWhole) (arg9 : Memref sig .tc .vmem S2000x12 .f32) (harg9 : arg9.IsWhole)
    (x0 : Vec F S2000x1024 .bf16) (x1 : Vec F S1024x1024 .bf16) (x2 : Vec F S1x1024 .f32) (x3 : Vec F S1024x4 .bf16) (x4 : Vec F S1x4 .f32) (x5 : Vec F S1024x12 .bf16) (x6 : Vec F S1x12 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay2 x0 x1 x2 x3 x4) ∗ owns (c : Thread nD τ) arg9 fullShare (k1_pay3 x0 x1 x2 x5 x6)) -∗ K ⟨⟩))
      ⊢ wp frame (wpE (defs₀ (F := F)) Variants.none c none) E (cc1__fc2_kernel i arg1 harg1 arg2 harg2 arg3 harg3 arg4 harg4 arg5 harg5 arg6 harg6 arg7 harg7 arg8 harg8 arg9 harg9) K := by
  simp only [cc1__fc2_kernel_eq_skeleton]; unfold cc1__fc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled [⟨_, _⟩] S2000x4.size (by rfl) y), View.canon_unit_zero hz2]
    simp only [View.readAt_eq_ld, View.ld_unit_zero (S := S2000x1024) hz2, View.ld_unit_zero (S := S1024x1024) hz2, View.ld_unit_zero (S := S1x1024) hz2, View.ld_unit_zero (S := S1024x4) hz2, View.ld_unit_zero (S := S1x4) hz2, View.ld_unit_zero (S := S1024x12) hz2, View.ld_unit_zero (S := S1x12) hz2]
  · iexists _; isplitr
    swap; · iexact H8
    ipureintro
    rw [View.read_writes_eq_canon _ _ _ (fun y => View.cover_of_tiled [⟨_, _⟩] S2000x12.size (by rfl) y), View.canon_unit_zero hz2]
    simp only [View.readAt_eq_ld, View.ld_unit_zero (S := S2000x1024) hz2, View.ld_unit_zero (S := S1024x1024) hz2, View.ld_unit_zero (S := S1x1024) hz2, View.ld_unit_zero (S := S1024x4) hz2, View.ld_unit_zero (S := S1x4) hz2, View.ld_unit_zero (S := S1024x12) hz2, View.ld_unit_zero (S := S1x12) hz2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.MainRun.lean ====
/-
  The whole run of the two-region program: the buffer contents at each boundary of @main as a fold from the launch
  memory (a host stretch applies its operations; a region leaves its arrays at what its write-backs fold to and every
  other buffer as entered), the two regions as segments around the thread state "every unscoped buffer at the boundary's
  contents, the generator register at some state, nothing owed", and the run: every weakly fair execution terminates and
  ends with every unscoped buffer at the last boundary's contents. The frame (each argument ends as launched) reads the
  arguments off that: no host operation and no region writes one.
-/
import proofs.«169232_j31834297598413_1_alg».proof.Proof.Fc1Body
import proofs.«169232_j31834297598413_1_alg».proof.Proof.Fc2Body
import proofs.«169232_j31834297598413_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. Its arrays are split
    out of the unscoped buffers and put back at the exit contents; the generator register and the scoped rest go into the
    region's invariant (which names the accumulator between points) and come back; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (F := F) (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    have h := hout0 (F := F) (V1 m) c
    unfold Pipeline.ΦA at h
    rw [Pipeline.ownSems0_none, show (pdats m 0 c).Φ (Fin.last _) = (dat0 (V1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    every final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any `F`: each argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

end Cert.KernelIdeal.Hand

end
-- ==== Proof.Layers.lean ====
/-
  What both programs compute, as functions of the argument arrays on the extended reals, entry by entry: a dense layer
  is, at row r and column q, the sum over the contracted index k of a(r, k) * w(k, q), plus the bias b(q); the two hidden
  layers clamp that below at zero; the two results are dense layers of the second hidden layer. The kernel receives each
  bias as a 1 x N row (a reshape on the host), so the dense layer is also stated with the bias as such a row.
-/
import Idealize.ShloMosaic.PureOps.Ideal.Laws
import Idealize.ShloMosaic.Lib.ValueIdx

noncomputable section

open scoped BigOperators

namespace Cert.Layers

open Idealize.ShloMosaic Idealize.ShloMosaic.ValueIdx

variable {M K N : ℕ}

/-- The zero both programs clamp at, kept as the word they print. -/
abbrev zeroWord : EReal := Ideal.ofBits .f32 0x00000000#32

/-- A dense layer with the bias a vector: entry (r, q) is the sum over k of a(r, k) * w(k, q), plus b(q). -/
def affine (a : (⟨2, ![M, K]⟩ : Shape).Idx → EReal) (w : (⟨2, ![K, N]⟩ : Shape).Idx → EReal) (b : (⟨1, ![N]⟩ : Shape).Idx → EReal) :
    (⟨2, ![M, N]⟩ : Shape).Idx → EReal :=
  fun j => (∑ k : Fin K, a (ix2 (j 0) k) * w (ix2 k (j 1))) + b (ix1 (j 1))

/-- The same with the bias a 1 x N row. -/
def affineRow (a : (⟨2, ![M, K]⟩ : Shape).Idx → EReal) (w : (⟨2, ![K, N]⟩ : Shape).Idx → EReal) (b : (⟨2, ![1, N]⟩ : Shape).Idx → EReal) :
    (⟨2, ![M, N]⟩ : Shape).Idx → EReal :=
  fun j => (∑ k : Fin K, a (ix2 (j 0) k) * w (ix2 k (j 1))) + b (ix2 0 (j 1))

/-- A row that holds the vector's entries gives the same layer. -/
theorem affineRow_eq_affine (a : (⟨2, ![M, K]⟩ : Shape).Idx → EReal) (w : (⟨2, ![K, N]⟩ : Shape).Idx → EReal)
    (brow : (⟨2, ![1, N]⟩ : Shape).Idx → EReal) (b : (⟨1, ![N]⟩ : Shape).Idx → EReal) (h : ∀ q : Fin N, brow (ix2 0 q) = b (ix1 q)) :
    affineRow a w brow = affine a w b := by
  funext j
  exact congrArg (fun z => (∑ k : Fin K, a (ix2 (j 0) k) * w (ix2 k (j 1))) + z) (h (j 1))

/-- Clamping below at the zero word, entry by entry. -/
def clamp {S : Shape} (h : S.Idx → EReal) : S.Idx → EReal := fun j => max (h j) zeroWord

/-- The first hidden layer, the second, and the two results, of the nine argument arrays. -/
def hidden1 (x : (⟨2, ![20000, 12544]⟩ : Shape).Idx → EReal) (W1 : (⟨2, ![12544, 1024]⟩ : Shape).Idx → EReal) (b1 : (⟨1, ![1024]⟩ : Shape).Idx → EReal) :
    (⟨2, ![20000, 1024]⟩ : Shape).Idx → EReal := clamp (affine x W1 b1)
def hidden2 (h1 : (⟨2, ![20000, 1024]⟩ : Shape).Idx → EReal) (W2 : (⟨2, ![1024, 1024]⟩ : Shape).Idx → EReal) (b2 : (⟨1, ![1024]⟩ : Shape).Idx → EReal) :
    (⟨2, ![20000, 1024]⟩ : Shape).Idx → EReal := clamp (affine h1 W2 b2)
def scores (h2 : (⟨2, ![20000, 1024]⟩ : Shape).Idx → EReal) (Wc : (⟨2, ![1024, 4]⟩ : Shape).Idx → EReal) (bc : (⟨1, ![4]⟩ : Shape).Idx → EReal) :
    (⟨2, ![20000, 4]⟩ : Shape).Idx → EReal := affine h2 Wc bc
def offsets (h2 : (⟨2, ![20000, 1024]⟩ : Shape).Idx → EReal) (Wr : (⟨2, ![1024, 12]⟩ : Shape).Idx → EReal) (br : (⟨1, ![12]⟩ : Shape).Idx → EReal) :
    (⟨2, ![20000, 12]⟩ : Shape).Idx → EReal := affine h2 Wr br

end Cert.Layers

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Fc1Point.lean ====
/-
  The first region, point by point, at the extended reals: what the body stores into the output block at the last tile
  of a row tile. At grid point t = (i, k) with k = 6, entry (p, q) of the stored block is the clamp at zero of the sum,
  over the WHOLE contracted axis (all 7 tiles of 1792), of x(1000 i + p, kk) * w(kk, q), plus the bias row's entry at q:
  the accumulator starts from zero at k = 0 and each of the 7 points adds its tile's partial sum, and a sum over
  7 * 1792 indices is the sum over the tiles of the sums inside each tile.
-/
import proofs.«169232_j31834297598413_1_alg».proof.Proof.Fc1Data
import proofs.«169232_j31834297598413_1_alg».proof.Proof.Layers
import proofs.«169232_j31834297598413_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws
import Mathlib.Algebra.BigOperators.Group.Finset.Basic
import Mathlib.Algebra.BigOperators.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The body's three stored values at an entry -/

/-- The value the accumulator is reset to: zero at every entry. -/
theorem pay1_apply (p : Fin 1000) (q : Fin 1024) : k0_pay1 (F := Ideal) (ix2 p q) = 0 := by
  unfold k0_pay1
  rw [shapeCast_self]
  exact Ideal.ofBits_zero_f32

/-- The accumulator's update: entry (p, q) of the accumulator plus the product of row p of the x block with column q of
    the weight block (rounding the x block to the narrower type is the identity on the extended reals). -/
theorem pay2_apply (x : Vec Ideal S1000x1792 .f32) (a : Vec Ideal S1000x1024 .f32) (w : Vec Ideal S1792x1024 .bf16)
    (p : Fin 1000) (q : Fin 1024) :
    k0_pay2 x a w (ix2 p q) = a (ix2 p q) + ∑ k : Fin 1792, x (ix2 p k) * w (ix2 k q) := by
  unfold k0_pay2
  rw [shapeCast_self, shapeCast_self]
  show a (ix2 p q) + FloatOps.matmul (F := Ideal) dot_S1000x1792_S1792x1024_S1000x1024_1_0_0_1_n_n none (truncf .bf16 x bitsLt_bf16_f32) w (constant S1000x1024 .f32 0x00000000#32) (ix2 p q) = _
  rw [Cert.PlainDot.matmul_zero_apply dot_S1000x1792_S1792x1024_S1000x1024_1_0_0_1_n_n rfl]
  rfl

/-- The stored output: entry (p, q) of the accumulator plus the bias row's entry at q, clamped below at the zero word. -/
theorem pay3_apply (a : Vec Ideal S1000x1024 .f32) (b : Vec Ideal S1x1024 .f32) (p : Fin 1000) (q : Fin 1024) :
    k0_pay3 a b (ix2 p q) = max (a (ix2 p q) + b (ix2 0 q)) Cert.Layers.zeroWord := by
  unfold k0_pay3
  rw [shapeCast_self]
  show max (a (ix2 p q) + broadcastTo S1000x1024 b broadcasts_S1x1024_S1000x1024 (ix2 p q)) (Ideal.ofBits .f32 0x00000000#32) = _
  rw [broadcastTo_1b_ab_apply]

/-! ## The three input blocks at a point, entry by entry -/

/-- The block indices at point t = (i, k): the x block is at (i, k), the weight block at (k, 0), the bias row at (0, 0). -/
theorem idx_facts0 : ∀ t : Fin cfg0.N,
    win0_0.index t (0 : Fin 2) = t.val / 7 ∧ win0_0.index t (1 : Fin 2) = t.val % 7
    ∧ win0_1.index t (0 : Fin 2) = t.val % 7 ∧ win0_1.index t (1 : Fin 2) = 0
    ∧ win0_2.index t (0 : Fin 2) = 0 ∧ win0_2.index t (1 : Fin 2) = 0 :=
  (by decide +kernel : ∀ t : Fin grid0.N, _)

/-- Entry (p, j) of the x block at point (i, k) is x(1000 i + p, 1792 k + j). -/
theorem xblk_apply (c : Dev nD) (t : Fin cfg0.N) (p : Fin 1000) (j : Fin 1792) :
    (iblk0 V c 0 t : S1000x1792.Idx → EReal) (ix2 p j)
      = (V c main_arg0 : S20000x12544.Idx → EReal)
          (ix2 (⟨(t.val / 7) * 1000 + p.val, by have := t.isLt; have hN : cfg0.N = 140 := N_0; omega⟩ : Fin 20000)
               (⟨(t.val % 7) * 1792 + j.val, by omega⟩ : Fin 12544)) := by
  obtain ⟨e0, e1, -⟩ := idx_facts0 t
  unfold iblk0
  show V c main_arg0 (((cfg0.win 0).blk t).view.emb (ix2 p j)) = V c main_arg0 _
  refine congrArg (V c main_arg0) (funext fun a => Fin.ext ?_)
  match a with
  | ⟨0, _⟩ => show win0_0.index t (0 : Fin 2) * 1000 + 1 * p.val = (t.val / 7) * 1000 + p.val; rw [e0]; omega
  | ⟨1, _⟩ => show win0_0.index t (1 : Fin 2) * 1792 + 1 * j.val = (t.val % 7) * 1792 + j.val; rw [e1]; omega

/-- Entry (j, q) of the weight block at point (i, k) is w(1792 k + j, q). -/
theorem wblk_apply (c : Dev nD) (t : Fin cfg0.N) (j : Fin 1792) (q : Fin 1024) :
    (iblk0 V c 1 t : S1792x1024.Idx → EReal) (ix2 j q)
      = (V c main_v0 : S12544x1024.Idx → EReal) (ix2 (⟨(t.val % 7) * 1792 + j.val, by omega⟩ : Fin 12544) q) := by
  obtain ⟨-, -, e0, e1, -⟩ := idx_facts0 t
  unfold iblk0
  show V c main_v0 (((cfg0.win 1).blk t).view.emb (ix2 j q)) = V c main_v0 _
  refine congrArg (V c main_v0) (funext fun a => Fin.ext ?_)
  match a with
  | ⟨0, _⟩ => show win0_1.index t (0 : Fin 2) * 1792 + 1 * j.val = (t.val % 7) * 1792 + j.val; rw [e0]; omega
  | ⟨1, _⟩ => show win0_1.index t (1 : Fin 2) * 1024 + 1 * q.val = q.val; rw [e1]; omega

/-- The bias block is the whole bias row at every point. -/
theorem bblk_apply (c : Dev nD) (t : Fin cfg0.N) (q : Fin 1024) :
    (iblk0 V c 2 t : S1x1024.Idx → EReal) (ix2 0 q)
      = (V c main_v1 : S1x1024.Idx → EReal) (ix2 0 q) := by
  obtain ⟨-, -, -, -, e0, e1⟩ := idx_facts0 t
  unfold iblk0
  show V c main_v1 (((cfg0.win 2).blk t).view.emb (ix2 0 q)) = V c main_v1 _
  refine congrArg (V c main_v1) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = q.val; rw [e1]; omega

/-! ## The contracted axis, tile by tile -/

/-- A sum over n * K consecutive naturals is the sum over the n tiles of the sums inside each tile of K. -/
theorem sum_range_tiles {β : Type*} [AddCommMonoid β] (f : ℕ → β) (K : ℕ) :
    ∀ n : ℕ, ∑ kk ∈ Finset.range (n * K), f kk = ∑ s ∈ Finset.range n, ∑ j ∈ Finset.range K, f (s * K + j)
  | 0 => by simp
  | n + 1 => by
    rw [Nat.succ_mul, Finset.sum_range_add, Finset.sum_range_succ, sum_range_tiles f K n]

/-- The product x(r, kk) * w(kk, q) as a function of a natural kk (zero past the contracted axis's end). -/
def term (X : S20000x12544.Idx → EReal) (W : S12544x1024.Idx → EReal) (r : Fin 20000) (q : Fin 1024) (kk : ℕ) : EReal :=
  if h : kk < 12544 then X (ix2 r ⟨kk, h⟩) * W (ix2 ⟨kk, h⟩ q) else 0

/-- The whole-length sum at (r, q) is the sum over the 7 tiles of the sums over each tile's 1792 indices. -/
theorem sum_term (X : S20000x12544.Idx → EReal) (W : S12544x1024.Idx → EReal) (r : Fin 20000) (q : Fin 1024) :
    ∑ k : Fin 12544, X (ix2 r k) * W (ix2 k q) = ∑ s ∈ Finset.range 7, ∑ j ∈ Finset.range 1792, term X W r q (s * 1792 + j) := by
  rw [← sum_range_tiles (term X W r q) 1792 7, Finset.sum_range]
  refine Finset.sum_congr rfl fun k _ => ?_
  unfold term
  rw [dif_pos k.isLt]

/-! ## The accumulator along a row tile -/

/-- What one point adds at entry (p, q): the partial sum over its tile s = k of the contracted axis, on row
    r = 1000 i + p. -/
theorem point_add (c : Dev nD) (t : Fin cfg0.N) (a : Vec Ideal S1000x1024 .f32) (p : Fin 1000) (q : Fin 1024)
    (r : Fin 20000) (hr : r.val = (t.val / 7) * 1000 + p.val) (s : ℕ) (hs : s = t.val % 7) :
    k0_pay2 (iblk0 V c 0 t) a (iblk0 V c 1 t) (ix2 p q)
      = a (ix2 p q) + ∑ j ∈ Finset.range 1792, term (V c main_arg0) (V c main_v0) r q (s * 1792 + j) := by
  refine (pay2_apply _ _ _ p q).trans ?_
  refine congrArg (a (ix2 p q) + ·) ?_
  rw [Finset.sum_range]
  refine Finset.sum_congr rfl fun j _ => ?_
  have hlt : s * 1792 + j.val < 12544 := by have := j.isLt; omega
  unfold term
  rw [dif_pos hlt, xblk_apply V c t p j, wblk_apply V c t j q]
  have e1 : (⟨(t.val / 7) * 1000 + p.val, by have := t.isLt; have hN : cfg0.N = 140 := N_0; omega⟩ : Fin 20000) = r := Fin.ext hr.symm
  have e2 : (⟨(t.val % 7) * 1792 + j.val, by omega⟩ : Fin 12544) = ⟨s * 1792 + j.val, hlt⟩ :=
    Fin.ext (by show t.val % 7 * 1792 + j.val = s * 1792 + j.val; omega)
  rw [e1, e2]

/-- Inside row tile i the accumulator after tile k holds the sum of the first k + 1 tile sums: zero plus the first
    tile's sum at k = 0, the tile's own sum added to the previous value at each later one. -/
theorem acc_tiles (c : Dev nD) (i : ℕ) (hi : i < 20) (p : Fin 1000) (q : Fin 1024) (r : Fin 20000) (hr : r.val = i * 1000 + p.val) :
    ∀ (k : ℕ) (hk : k < 7) (h : 7 * i + k < cfg0.N),
      accAt0 V c (7 * i + k) h (ix2 p q)
        = ∑ s ∈ Finset.range (k + 1), ∑ j ∈ Finset.range 1792, term (V c main_arg0) (V c main_v0) r q (s * 1792 + j)
  | 0, _, h => by
    have e := accAt0_reset V c ⟨7 * i + 0, h⟩ (by show (7 * i + 0) % 7 = 0; omega)
    rw [Finset.sum_range_one]
    refine (congrFun e (ix2 p q)).trans ?_
    refine (point_add V c ⟨7 * i + 0, h⟩ _ p q r (by show r.val = (7 * i + 0) / 7 * 1000 + p.val; omega) 0
      (by show 0 = (7 * i + 0) % 7; omega)).trans ?_
    rw [pay1_apply, zero_add]
  | k + 1, hk, h => by
    have e := accAt0_carry V c ⟨7 * i + (k + 1), h⟩ (by show ¬ (7 * i + (k + 1)) % 7 = 0; omega)
    rw [Finset.sum_range_succ _ (k + 1)]
    refine (congrFun e (ix2 p q)).trans ?_
    refine (point_add V c ⟨7 * i + (k + 1), h⟩ _ p q r (by show r.val = (7 * i + (k + 1)) / 7 * 1000 + p.val; omega) (k + 1)
      (by show k + 1 = (7 * i + (k + 1)) % 7; omega)).trans ?_
    refine congrArg (· + ∑ j ∈ Finset.range 1792, term (V c main_arg0) (V c main_v0) r q ((k + 1) * 1792 + j)) ?_
    exact acc_tiles c i hi p q r hr k (by omega) (by omega)

/-! ## The stored block -/

/-- The output block's entries where the body stores it (the last tile of row tile `t / 7`). -/
theorem outAt0_apply (c : Dev nD) (t : Fin cfg0.N) (ht : t.val % 7 = 6) (p : Fin 1000) (q : Fin 1024) :
    outAt0 (F := Ideal) V c t (ix2 p q)
      = Cert.Layers.clamp (Cert.Layers.affineRow (V c main_arg0 : S20000x12544.Idx → EReal) (V c main_v0 : S12544x1024.Idx → EReal) (V c main_v1 : S1x1024.Idx → EReal))
          (ix2 (⟨(t.val / 7) * 1000 + p.val, by have := t.isLt; have hN : cfg0.N = 140 := N_0; omega⟩ : Fin 20000) q) := by
  have hN : cfg0.N = 140 := N_0
  have htl := t.isLt
  have hdiv : 7 * (t.val / 7) + 6 = t.val := by omega
  have same : ∀ (u : ℕ) (hu : u < cfg0.N), u = t.val → accAt0 V c u hu = accAt0 V c t.val t.isLt :=
    fun u hu e => by subst e; rfl
  unfold outAt0
  refine (pay3_apply _ _ p q).trans ?_
  rw [bblk_apply V c t q, ← same (7 * (t.val / 7) + 6) (by omega) hdiv,
    acc_tiles V c (t.val / 7) (by omega) p q ⟨(t.val / 7) * 1000 + p.val, by omega⟩ rfl 6 (by omega) (by omega),
    ← sum_term]
  rfl

end Cert.KernelIdeal.Hand

end
-- ==== Proof.Fc1Value.lean ====
/-
  The first region's result at the extended reals: after the run, the hidden-activation array holds, at row r and
  column q, the clamp at zero of the whole-length sum over k of x(r, k) * w(k, q) plus the bias row's entry at q.
-/
import proofs.«169232_j31834297598413_1_alg».proof.Proof.Fc1Point
import proofs.«169232_j31834297598413_1_alg».proof.Proof.Layers
import proofs.«169232_j31834297598413_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- The output window's block index at grid point `t`: the row tile `t / 7` on the row axis, zero on the column axis. -/
theorem fc1_out_index : ∀ t : Fin cfg0.N, win0_3.index t (0 : Fin 2) = t.val / 7 ∧ win0_3.index t (1 : Fin 2) = 0 :=
  (by decide +kernel : ∀ t : Fin grid0.N, win0_3.index t (0 : Fin 2) = t.val / 7 ∧ win0_3.index t (1 : Fin 2) = 0)

/-- The whole hidden-activation array as one function of its index: the clamped dense layer of the entry contents. -/
abbrev fc1_hidden (c : Dev nD) : S20000x1024.Idx → EReal :=
  Cert.Layers.clamp (Cert.Layers.affineRow (V c main_arg0 : S20000x12544.Idx → EReal) (V c main_v0 : S12544x1024.Idx → EReal) (V c main_v1 : S1x1024.Idx → EReal))

/-- What a point that closes a row tile (k = 6) writes back is its block of that one function: entry (p, q) of the
    block of row tile i sits in the array at row 1000 i + p, column q (block index times block size plus the
    coordinate inside the block, the column block index being zero), and there the stored block holds the layer's value. -/
theorem fc1_flushed_eq (c : Dev nD) (t : Fin cfg0.N) (ht : t.val % 7 = 6) :
    (dat0 (F := Ideal) V c).flushed 3 t = ((cfg0.win 3).blk t).view.read (Elt Ideal) (fc1_hidden V c) := by
  show (cfg0.win 3).cut (grid0.coords t) ((dat0 (F := Ideal) V c).after 3 t) = _
  rw [after0_3]
  funext y
  obtain ⟨p, q, rfl⟩ : ∃ (p : Fin 1000) (q : Fin 1024), y = ix2 p q := ⟨y 0, y 1, eq_ix2 y⟩
  show outAt0 (F := Ideal) V c t (ix2 p q) = fc1_hidden V c (((cfg0.win 3).blk t).view.emb (ix2 p q))
  rw [outAt0_apply V c t ht p q]
  obtain ⟨e0, e1⟩ := fc1_out_index t
  refine congrArg (fc1_hidden V c) ?_
  funext a
  apply Fin.ext
  match a with
  | ⟨0, _⟩ =>
    show t.val / 7 * 1000 + p.val = win0_3.index t (0 : Fin 2) * 1000 + 1 * p.val
    omega
  | ⟨1, _⟩ =>
    show q.val = win0_3.index t (1 : Fin 2) * 1024 + 1 * q.val
    omega

/-- An index of the array lies under point `t`'s output block iff, on each axis, its coordinate is in the block's range:
    from the block index times the block size, for the block size. -/
theorem fc1_mem_out_blk (t : Fin cfg0.N) (i : S20000x1024.Idx) :
    i ∈ ((cfg0.win 3).blk t).view.set ↔ ∀ a : Fin 2, win0_3.index t a * S1000x1024.size a ≤ (i a).val ∧ (i a).val < win0_3.index t a * S1000x1024.size a + S1000x1024.size a := by
  show i ∈ ((View.whole main_v2).slice (win0_3.rect t)).set ↔ _
  rw [View.set_slice_whole, Rect.mem_set_unit]
  exact Iff.rfl

/-- Every index of the array is under a block that is written back: row r belongs to row tile r / 1000, whose last point
    is 7 (r / 1000) + 6; that point's block spans rows 1000 (r / 1000) … + 999 and all 1024 columns. -/
theorem fc1_out_cover (i : S20000x1024.Idx) :
    ∃ t : Fin cfg0.N, (cfg0.win 3).flush t = true ∧ i ∈ ((cfg0.win 3).blk t).view.set := by
  have hi0 : (i 0).val < 20000 := (i 0).isLt
  have hi1 : (i 1).val < 1024 := (i 1).isLt
  have hN : cfg0.N = 140 := N_0
  have hlt : 7 * ((i 0).val / 1000) + 6 < cfg0.N := by omega
  obtain ⟨e0, e1⟩ := fc1_out_index ⟨7 * ((i 0).val / 1000) + 6, hlt⟩
  refine ⟨⟨7 * ((i 0).val / 1000) + 6, hlt⟩, (flush0_3 _).mpr ?_, ?_⟩
  · show (7 * ((i 0).val / 1000) + 6) % 7 = 6
    omega
  · rw [fc1_mem_out_blk]
    intro a
    have e0' : win0_3.index ⟨7 * ((i 0).val / 1000) + 6, hlt⟩ (0 : Fin 2) = (7 * ((i 0).val / 1000) + 6) / 7 := e0
    match a with
    | ⟨0, _⟩ =>
      show win0_3.index ⟨7 * ((i 0).val / 1000) + 6, hlt⟩ (0 : Fin 2) * 1000 ≤ (i 0).val ∧ (i 0).val < win0_3.index ⟨7 * ((i 0).val / 1000) + 6, hlt⟩ (0 : Fin 2) * 1000 + 1000
      omega
    | ⟨1, _⟩ =>
      show win0_3.index ⟨7 * ((i 0).val / 1000) + 6, hlt⟩ (1 : Fin 2) * 1024 ≤ (i 1).val ∧ (i 1).val < win0_3.index ⟨7 * ((i 0).val / 1000) + 6, hlt⟩ (1 : Fin 2) * 1024 + 1024
      omega

/-- The first region's array after its 140 points. -/
theorem fc1_final (c : Dev nD) :
    ((dat0 (F := Ideal) V c).arrAt 3 cfg0.N : S20000x1024.Idx → EReal)
      = Cert.Layers.clamp (Cert.Layers.affineRow (V c main_arg0 : S20000x12544.Idx → EReal) (V c main_v0 : S12544x1024.Idx → EReal) (V c main_v1 : S1x1024.Idx → EReal)) :=
  (dat0 (F := Ideal) V c).arrAt_eq_of_cover 3 (fc1_hidden V c)
    (fun t hf => fc1_flushed_eq V c t ((flush0_3 t).mp hf)) fc1_out_cover

end Cert.KernelIdeal.Hand

end
-- ==== Proof.Fc2Value.lean ====
/-
  The second region's two results at the extended reals: after the run, the class-score array holds the dense layer of
  the second hidden layer with the class weights and bias row, and the box-offset array the one with the box weights and
  bias row, where the second hidden layer is the clamp at zero of the dense layer of the region's input activations.
-/
import proofs.«169232_j31834297598413_1_alg».proof.Proof.Fc2Data
import proofs.«169232_j31834297598413_1_alg».proof.Proof.Layers
import proofs.«169232_j31834297598413_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- A bias row broadcast down the rows, read at an entry: the row's entry in that column. -/
theorem biasRow_apply {M N : ℕ} (b : (⟨2, ![1, N]⟩ : Shape).Idx → EReal) (h : (⟨2, ![1, N]⟩ : Shape).Broadcasts ⟨2, ![M, N]⟩)
    (p : Fin M) (q : Fin N) : broadcastTo ⟨2, ![M, N]⟩ b h (ix2 p q) = b (ix2 0 q) := by
  refine broadcastTo_apply b h (ix2 p q) (ix2 0 q) fun a => ?_
  match a with
  | ⟨0, _⟩ => rfl
  | ⟨1, _⟩ =>
    show (q : ℕ) = if N = 1 then 0 else (q : ℕ)
    split
    · next hN => have := q.isLt; omega
    · rfl

/-- The second hidden layer of a tile's rows, at an entry: the dense layer of the tile's rows with the weights and the
    bias row, clamped below at the zero word (the narrowing to the storage format is the identity on the extended reals). -/
theorem hidden_tile_apply (x : Vec Ideal S2000x1024 .bf16) (w : Vec Ideal S1024x1024 .bf16) (b : Vec Ideal S1x1024 .f32)
    (p : Fin 2000) (k : Fin 1024) :
    k1_pay1 x w b (ix2 p k) = max ((∑ k' : Fin 1024, x (ix2 p k') * w (ix2 k' k)) + b (ix2 0 k)) Cert.Layers.zeroWord := by
  unfold k1_pay1
  simp only [shapeCast_self]
  rw [truncf_apply, maximumf_apply, addf_apply, broadcast_apply, biasRow_apply]
  show max (FloatOps.matmul (F := Ideal) dot_S2000x1024_S1024x1024_S2000x1024_1_0_0_1_n_n none x w (constant S2000x1024 .f32 0x00000000#32) (ix2 p k) + b (ix2 0 k)) _ = _
  rw [Cert.PlainDot.matmul_zero_apply dot_S2000x1024_S1024x1024_S2000x1024_1_0_0_1_n_n rfl]
  rfl

/-- The class scores of a tile's rows, at an entry: the dense layer of the tile's second hidden layer. -/
theorem scores_tile_apply (x : Vec Ideal S2000x1024 .bf16) (w : Vec Ideal S1024x1024 .bf16) (b : Vec Ideal S1x1024 .f32)
    (wc : Vec Ideal S1024x4 .bf16) (bc : Vec Ideal S1x4 .f32) (p : Fin 2000) (q : Fin 4) :
    k1_pay2 x w b wc bc (ix2 p q) = (∑ k : Fin 1024, k1_pay1 x w b (ix2 p k) * wc (ix2 k q)) + bc (ix2 0 q) := by
  unfold k1_pay2
  simp only [shapeCast_self]
  rw [addf_apply, biasRow_apply]
  show FloatOps.matmul (F := Ideal) dot_S2000x1024_S1024x4_S2000x4_1_0_0_1_n_n none (k1_pay1 x w b) wc (constant S2000x4 .f32 0x00000000#32) (ix2 p q) + bc (ix2 0 q) = _
  rw [Cert.PlainDot.matmul_zero_apply dot_S2000x1024_S1024x4_S2000x4_1_0_0_1_n_n rfl]

/-- The box offsets of a tile's rows, at an entry: the dense layer of the tile's second hidden layer. -/
theorem offsets_tile_apply (x : Vec Ideal S2000x1024 .bf16) (w : Vec Ideal S1024x1024 .bf16) (b : Vec Ideal S1x1024 .f32)
    (wr : Vec Ideal S1024x12 .bf16) (br : Vec Ideal S1x12 .f32) (p : Fin 2000) (q : Fin 12) :
    k1_pay3 x w b wr br (ix2 p q) = (∑ k : Fin 1024, k1_pay1 x w b (ix2 p k) * wr (ix2 k q)) + br (ix2 0 q) := by
  unfold k1_pay3
  simp only [shapeCast_self]
  rw [addf_apply, biasRow_apply]
  show FloatOps.matmul (F := Ideal) dot_S2000x1024_S1024x12_S2000x12_1_0_0_1_n_n none (k1_pay1 x w b) wr (constant S2000x12 .f32 0x00000000#32) (ix2 p q) + br (ix2 0 q) = _
  rw [Cert.PlainDot.matmul_zero_apply dot_S2000x1024_S1024x12_S2000x12_1_0_0_1_n_n rfl]

/-- Row p of a tile's second hidden layer is row r of the whole one, when the tile's row p of activations is the whole
    array's row r: both are the same dense layer of that row, clamped. -/
theorem hidden_row_eq (x : Vec Ideal S2000x1024 .bf16) (a : S20000x1024.Idx → EReal) (w : S1024x1024.Idx → EReal) (b : S1x1024.Idx → EReal)
    (p : Fin 2000) (r : Fin 20000) (hx : ∀ k' : Fin 1024, x (ix2 p k') = a (ix2 r k')) (k : Fin 1024) :
    k1_pay1 x w b (ix2 p k) = Cert.Layers.clamp (Cert.Layers.affineRow a w b) (ix2 r k) := by
  rw [hidden_tile_apply]
  show _ = max ((∑ k' : Fin 1024, a (ix2 r k') * w (ix2 k' k)) + b (ix2 0 k)) Cert.Layers.zeroWord
  congr 2
  exact Finset.sum_congr rfl fun k' _ => by rw [hx k']

/-- Row p of a tile's class scores is row r of the whole array's. -/
theorem scores_row_eq (x : Vec Ideal S2000x1024 .bf16) (a : S20000x1024.Idx → EReal) (w : S1024x1024.Idx → EReal) (b : S1x1024.Idx → EReal)
    (wc : S1024x4.Idx → EReal) (bc : S1x4.Idx → EReal)
    (p : Fin 2000) (r : Fin 20000) (hx : ∀ k' : Fin 1024, x (ix2 p k') = a (ix2 r k')) (q : Fin 4) :
    k1_pay2 x w b wc bc (ix2 p q) = Cert.Layers.affineRow (Cert.Layers.clamp (Cert.Layers.affineRow a w b)) wc bc (ix2 r q) := by
  rw [scores_tile_apply]
  show _ = (∑ k : Fin 1024, Cert.Layers.clamp (Cert.Layers.affineRow a w b) (ix2 r k) * wc (ix2 k q)) + bc (ix2 0 q)
  congr 1
  exact Finset.sum_congr rfl fun k _ => by rw [hidden_row_eq x a w b p r hx k]

/-- Row p of a tile's box offsets is row r of the whole array's. -/
theorem offsets_row_eq (x : Vec Ideal S2000x1024 .bf16) (a : S20000x1024.Idx → EReal) (w : S1024x1024.Idx → EReal) (b : S1x1024.Idx → EReal)
    (wr : S1024x12.Idx → EReal) (br : S1x12.Idx → EReal)
    (p : Fin 2000) (r : Fin 20000) (hx : ∀ k' : Fin 1024, x (ix2 p k') = a (ix2 r k')) (q : Fin 12) :
    k1_pay3 x w b wr br (ix2 p q) = Cert.Layers.affineRow (Cert.Layers.clamp (Cert.Layers.affineRow a w b)) wr br (ix2 r q) := by
  rw [offsets_tile_apply]
  show _ = (∑ k : Fin 1024, Cert.Layers.clamp (Cert.Layers.affineRow a w b) (ix2 r k) * wr (ix2 k q)) + br (ix2 0 q)
  congr 1
  exact Finset.sum_congr rfl fun k _ => by rw [hidden_row_eq x a w b p r hx k]

/-- The index maps over the 10 points: the activations' and both results' row block is the point's own, their column
    block the only one; every weight and bias row is one whole block. -/
theorem tile_index : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- Row p of tile t's activations is row 2000 t + p of the whole array, column for column. -/
theorem act_tile_apply (c : Dev nD) (t : Fin cfg1.N) (p : Fin 2000) (k : Fin 1024) (r : Fin 20000) (hr : r.val = 2000 * t.val + p.val) :
    (iblk1 V c 0 t : Vec Ideal S2000x1024 .bf16) (ix2 p k) = (V c main_v2 : S20000x1024.Idx → EReal) (ix2 r k) := by
  obtain ⟨⟨e0, e1⟩, -⟩ := tile_index t
  unfold iblk1
  rw [View.read_apply]
  show (V c main_v2 : S20000x1024.Idx → EReal) _ = V c main_v2 (ix2 r k)
  congr 1
  funext a
  apply Fin.ext
  match a with
  | ⟨0, _⟩ => show win1_0.index t (0 : Fin 2) * 2000 + 1 * p.val = r.val; rw [e0, hr]; omega
  | ⟨1, _⟩ => show win1_0.index t (1 : Fin 2) * 1024 + 1 * k.val = k.val; rw [e1]; omega

/-- The second layer's weights' one block is the whole array. -/
theorem w2_block (c : Dev nD) (t : Fin cfg1.N) :
    (iblk1 V c 1 t : Vec Ideal S1024x1024 .bf16) = (V c main_v3 : S1024x1024.Idx → EReal) := by
  obtain ⟨-, ⟨e0, e1⟩, -, -, -, -, -, -, -⟩ := tile_index t
  funext y
  unfold iblk1
  rw [View.read_apply]
  show (V c main_v3 : S1024x1024.Idx → EReal) _ = V c main_v3 y
  congr 1
  funext a
  apply Fin.ext
  match a with
  | ⟨0, _⟩ => show win1_1.index t (0 : Fin 2) * 1024 + 1 * (y 0).val = (y 0).val; rw [e0]; omega
  | ⟨1, _⟩ => show win1_1.index t (1 : Fin 2) * 1024 + 1 * (y 1).val = (y 1).val; rw [e1]; omega

/-- The second layer's bias row's one block is the whole row. -/
theorem b2_block (c : Dev nD) (t : Fin cfg1.N) :
    (iblk1 V c 2 t : Vec Ideal S1x1024 .f32) = (V c main_v6 : S1x1024.Idx → EReal) := by
  obtain ⟨-, -, ⟨e0, e1⟩, -, -, -, -, -, -⟩ := tile_index t
  funext y
  unfold iblk1
  rw [View.read_apply]
  show (V c main_v6 : S1x1024.Idx → EReal) _ = V c main_v6 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega

/-- The class weights' one block is the whole array. -/
theorem wc_block (c : Dev nD) (t : Fin cfg1.N) :
    (iblk1 V c 3 t : Vec Ideal S1024x4 .bf16) = (V c main_v4 : S1024x4.Idx → EReal) := by
  obtain ⟨-, -, -, ⟨e0, e1⟩, -, -, -, -, -⟩ := tile_index t
  funext y
  unfold iblk1
  rw [View.read_apply]
  show (V c main_v4 : S1024x4.Idx → EReal) _ = V c main_v4 y
  congr 1
  funext a
  apply Fin.ext
  match a with
  | ⟨0, _⟩ => show win1_3.index t (0 : Fin 2) * 1024 + 1 * (y 0).val = (y 0).val; rw [e0]; omega
  | ⟨1, _⟩ => show win1_3.index t (1 : Fin 2) * 4 + 1 * (y 1).val = (y 1).val; rw [e1]; omega

/-- The class bias row's one block is the whole row. -/
theorem bc_block (c : Dev nD) (t : Fin cfg1.N) :
    (iblk1 V c 4 t : Vec Ideal S1x4 .f32) = (V c main_v7 : S1x4.Idx → EReal) := by
  obtain ⟨-, -, -, -, ⟨e0, e1⟩, -, -, -, -⟩ := tile_index t
  funext y
  unfold iblk1
  rw [View.read_apply]
  show (V c main_v7 : S1x4.Idx → EReal) _ = V c main_v7 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 4 + 1 * (y 1).val = (y 1).val; rw [e1]; omega

/-- The box weights' one block is the whole array. -/
theorem wr_block (c : Dev nD) (t : Fin cfg1.N) :
    (iblk1 V c 5 t : Vec Ideal S1024x12 .bf16) = (V c main_v5 : S1024x12.Idx → EReal) := by
  obtain ⟨-, -, -, -, -, ⟨e0, e1⟩, -, -, -⟩ := tile_index t
  funext y
  unfold iblk1
  rw [View.read_apply]
  show (V c main_v5 : S1024x12.Idx → EReal) _ = V c main_v5 y
  congr 1
  funext a
  apply Fin.ext
  match a with
  | ⟨0, _⟩ => show win1_5.index t (0 : Fin 2) * 1024 + 1 * (y 0).val = (y 0).val; rw [e0]; omega
  | ⟨1, _⟩ => show win1_5.index t (1 : Fin 2) * 12 + 1 * (y 1).val = (y 1).val; rw [e1]; omega

/-- The box bias row's one block is the whole row. -/
theorem br_block (c : Dev nD) (t : Fin cfg1.N) :
    (iblk1 V c 6 t : Vec Ideal S1x12 .f32) = (V c main_v8 : S1x12.Idx → EReal) := by
  obtain ⟨-, -, -, -, -, -, ⟨e0, e1⟩, -, -⟩ := tile_index t
  funext y
  unfold iblk1
  rw [View.read_apply]
  show (V c main_v8 : S1x12.Idx → EReal) _ = V c main_v8 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 12 + 1 * (y 1).val = (y 1).val; rw [e1]; omega

/-- The second hidden layer of all 20000 rows: the dense layer of the input activations with the second layer's weights
    and bias row, clamped below at the zero word. -/
abbrev hiddenAll (c : Dev nD) : S20000x1024.Idx → EReal :=
  Cert.Layers.clamp (Cert.Layers.affineRow (V c main_v2 : S20000x1024.Idx → EReal) (V c main_v3 : S1024x1024.Idx → EReal) (V c main_v6 : S1x1024.Idx → EReal))

/-- The class scores of all 20000 rows. -/
abbrev scoresAll (c : Dev nD) : S20000x4.Idx → EReal :=
  Cert.Layers.affineRow (hiddenAll V c) (V c main_v4 : S1024x4.Idx → EReal) (V c main_v7 : S1x4.Idx → EReal)

/-- The box offsets of all 20000 rows. -/
abbrev offsetsAll (c : Dev nD) : S20000x12.Idx → EReal :=
  Cert.Layers.affineRow (hiddenAll V c) (V c main_v5 : S1024x12.Idx → EReal) (V c main_v8 : S1x12.Idx → EReal)

/-- What point t writes back to the class-score array is block t of the whole array's class-scores: entry (p, q) of the
    point's result is entry (2000 t + p, q) of the whole array's. -/
theorem scores_flushed (c : Dev nD) (t : Fin cfg1.N) :
    (dat1 (F := Ideal) V c).flushed 7 t = ((cfg1.win 7).blk t).view.read (Elt Ideal) (scoresAll V c) := by
  obtain ⟨-, -, -, -, -, -, -, ⟨e0, e1⟩, -⟩ := tile_index t
  have hN : t.val < 10 := Nat.lt_of_lt_of_eq t.isLt N_1
  show (cfg1.win 7).cut (grid1.coords t) ((dat1 V c).after 7 t) = _
  rw [after1_7]
  unfold cls1
  rw [w2_block, b2_block, wc_block, bc_block]
  funext y
  rw [View.read_apply]
  have hy0 : (y 0).val < 2000 := (y 0).isLt
  have hy1 : (y 1).val < 4 := (y 1).isLt
  have hx : ((cfg1.win 7).xinj (grid1.coords t) y : S2000x4.Idx) = ix2 ⟨(y 0).val, hy0⟩ ⟨(y 1).val, hy1⟩ := by
    funext a
    match a with
    | ⟨0, _⟩ => rfl
    | ⟨1, _⟩ => rfl
  have he : (((cfg1.win 7).blk t).view.emb y : S20000x4.Idx) = ix2 ⟨2000 * t.val + (y 0).val, by omega⟩ ⟨(y 1).val, hy1⟩ := by
    funext a
    apply Fin.ext
    match a with
    | ⟨0, _⟩ => show win1_7.index t (0 : Fin 2) * 2000 + 1 * (y 0).val = 2000 * t.val + (y 0).val; rw [e0]; omega
    | ⟨1, _⟩ => show win1_7.index t (1 : Fin 2) * 4 + 1 * (y 1).val = (y 1).val; rw [e1]; omega
  have key := scores_row_eq (iblk1 V c 0 t) (V c main_v2) (V c main_v3) (V c main_v6) (V c main_v4) (V c main_v7)
    ⟨(y 0).val, hy0⟩ ⟨2000 * t.val + (y 0).val, by omega⟩ (fun k' => act_tile_apply V c t _ k' _ rfl) ⟨(y 1).val, hy1⟩
  exact (congrArg (k1_pay2 (iblk1 V c 0 t) (V c main_v3) (V c main_v6) (V c main_v4) (V c main_v7)) hx).trans
    (key.trans (congrArg (scoresAll V c) he.symm))

/-- What point t writes back to the box-offset array is block t of the whole array's box-offsets: entry (p, q) of the
    point's result is entry (2000 t + p, q) of the whole array's. -/
theorem offsets_flushed (c : Dev nD) (t : Fin cfg1.N) :
    (dat1 (F := Ideal) V c).flushed 8 t = ((cfg1.win 8).blk t).view.read (Elt Ideal) (offsetsAll V c) := by
  obtain ⟨-, -, -, -, -, -, -, -, ⟨e0, e1⟩⟩ := tile_index t
  have hN : t.val < 10 := Nat.lt_of_lt_of_eq t.isLt N_1
  show (cfg1.win 8).cut (grid1.coords t) ((dat1 V c).after 8 t) = _
  rw [after1_8]
  unfold box1
  rw [w2_block, b2_block, wr_block, br_block]
  funext y
  rw [View.read_apply]
  have hy0 : (y 0).val < 2000 := (y 0).isLt
  have hy1 : (y 1).val < 12 := (y 1).isLt
  have hx : ((cfg1.win 8).xinj (grid1.coords t) y : S2000x12.Idx) = ix2 ⟨(y 0).val, hy0⟩ ⟨(y 1).val, hy1⟩ := by
    funext a
    match a with
    | ⟨0, _⟩ => rfl
    | ⟨1, _⟩ => rfl
  have he : (((cfg1.win 8).blk t).view.emb y : S20000x12.Idx) = ix2 ⟨2000 * t.val + (y 0).val, by omega⟩ ⟨(y 1).val, hy1⟩ := by
    funext a
    apply Fin.ext
    match a with
    | ⟨0, _⟩ => show win1_8.index t (0 : Fin 2) * 2000 + 1 * (y 0).val = 2000 * t.val + (y 0).val; rw [e0]; omega
    | ⟨1, _⟩ => show win1_8.index t (1 : Fin 2) * 12 + 1 * (y 1).val = (y 1).val; rw [e1]; omega
  have key := offsets_row_eq (iblk1 V c 0 t) (V c main_v2) (V c main_v3) (V c main_v6) (V c main_v5) (V c main_v8)
    ⟨(y 0).val, hy0⟩ ⟨2000 * t.val + (y 0).val, by omega⟩ (fun k' => act_tile_apply V c t _ k' _ rfl) ⟨(y 1).val, hy1⟩
  exact (congrArg (k1_pay3 (iblk1 V c 0 t) (V c main_v3) (V c main_v6) (V c main_v5) (V c main_v8)) hx).trans
    (key.trans (congrArg (offsetsAll V c) he.symm))

/-- An index of the class-score array is in point t's block iff, on each axis, it is within the block's range. -/
theorem scores_mem_blk (t : Fin cfg1.N) (i : S20000x4.Idx) :
    i ∈ ((cfg1.win 7).blk t).view.set ↔ ∀ a : Fin 2, win1_7.index t a * S2000x4.size a ≤ (i a).val ∧ (i a).val < win1_7.index t a * S2000x4.size a + S2000x4.size a := by
  show i ∈ ((View.whole main_v9_0).slice (win1_7.rect t)).set ↔ _
  rw [View.set_slice_whole, Rect.mem_set_unit]
  exact Iff.rfl

/-- Every index of the class-score array is in the block of the point that owns its row's tile: row r is in tile r / 2000. -/
theorem scores_cover (i : S20000x4.Idx) : ∃ t : Fin cfg1.N, (cfg1.win 7).flush t = true ∧ i ∈ ((cfg1.win 7).blk t).view.set := by
  have hi0 : (i 0).val < 20000 := (i 0).isLt
  have hi1 : (i 1).val < 4 := (i 1).isLt
  have ht : (i 0).val / 2000 < cfg1.N := Nat.lt_of_lt_of_eq (by omega : (i 0).val / 2000 < 10) N_1.symm
  refine ⟨⟨(i 0).val / 2000, ht⟩, flush1_7 _, ?_⟩
  obtain ⟨-, -, -, -, -, -, -, ⟨e0, e1⟩, -⟩ := tile_index ⟨(i 0).val / 2000, ht⟩
  rw [scores_mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_7.index ⟨(i 0).val / 2000, ht⟩ (1 : Fin 2) * 4 ≤ (i 1).val ∧ (i 1).val < win1_7.index ⟨(i 0).val / 2000, ht⟩ (1 : Fin 2) * 4 + 4
    rw [e1]
    omega

/-- An index of the box-offset array is in point t's block iff, on each axis, it is within the block's range. -/
theorem offsets_mem_blk (t : Fin cfg1.N) (i : S20000x12.Idx) :
    i ∈ ((cfg1.win 8).blk t).view.set ↔ ∀ a : Fin 2, win1_8.index t a * S2000x12.size a ≤ (i a).val ∧ (i a).val < win1_8.index t a * S2000x12.size a + S2000x12.size a := by
  show i ∈ ((View.whole main_v9_1).slice (win1_8.rect t)).set ↔ _
  rw [View.set_slice_whole, Rect.mem_set_unit]
  exact Iff.rfl

/-- Every index of the box-offset array is in the block of the point that owns its row's tile: row r is in tile r / 2000. -/
theorem offsets_cover (i : S20000x12.Idx) : ∃ t : Fin cfg1.N, (cfg1.win 8).flush t = true ∧ i ∈ ((cfg1.win 8).blk t).view.set := by
  have hi0 : (i 0).val < 20000 := (i 0).isLt
  have hi1 : (i 1).val < 12 := (i 1).isLt
  have ht : (i 0).val / 2000 < cfg1.N := Nat.lt_of_lt_of_eq (by omega : (i 0).val / 2000 < 10) N_1.symm
  refine ⟨⟨(i 0).val / 2000, ht⟩, flush1_8 _, ?_⟩
  obtain ⟨-, -, -, -, -, -, -, -, ⟨e0, e1⟩⟩ := tile_index ⟨(i 0).val / 2000, ht⟩
  rw [offsets_mem_blk]
  intro a
  match a with
  | ⟨0, _⟩ =>
    show win1_8.index ⟨(i 0).val / 2000, ht⟩ (0 : Fin 2) * 2000 ≤ (i 0).val ∧ (i 0).val < win1_8.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_8.index ⟨(i 0).val / 2000, ht⟩ (1 : Fin 2) * 12 ≤ (i 1).val ∧ (i 1).val < win1_8.index ⟨(i 0).val / 2000, ht⟩ (1 : Fin 2) * 12 + 12
    rw [e1]
    omega

/-- The class scores after the second region's 10 points. -/
theorem fc2_scores (c : Dev nD) :
    ((dat1 (F := Ideal) V c).arrAt 7 cfg1.N : S20000x4.Idx → EReal)
      = Cert.Layers.affineRow (Cert.Layers.clamp (Cert.Layers.affineRow (V c main_v2 : S20000x1024.Idx → EReal) (V c main_v3 : S1024x1024.Idx → EReal) (V c main_v6 : S1x1024.Idx → EReal))) (V c main_v4 : S1024x4.Idx → EReal) (V c main_v7 : S1x4.Idx → EReal) :=
  (dat1 (F := Ideal) V c).arrAt_eq_of_cover 7 (scoresAll V c) (fun t _ => scores_flushed V c t) scores_cover

/-- The box offsets after the second region's 10 points. -/
theorem fc2_offsets (c : Dev nD) :
    ((dat1 (F := Ideal) V c).arrAt 8 cfg1.N : S20000x12.Idx → EReal)
      = Cert.Layers.affineRow (Cert.Layers.clamp (Cert.Layers.affineRow (V c main_v2 : S20000x1024.Idx → EReal) (V c main_v3 : S1024x1024.Idx → EReal) (V c main_v6 : S1x1024.Idx → EReal))) (V c main_v5 : S1024x12.Idx → EReal) (V c main_v8 : S1x12.Idx → EReal) :=
  (dat1 (F := Ideal) V c).arrAt_eq_of_cover 8 (offsetsAll V c) (fun t _ => offsets_flushed V c t) offsets_cover

end Cert.KernelIdeal.Hand

end
-- ==== Proof.KernelValue.lean ====
/-
  The kernel program's two results at the extended reals, as functions of the launch arguments. Between the launch and
  the first region the host converts the first weight matrix to the narrow format (the identity on the extended reals)
  and reshapes the first bias into a 1 x 1024 row; between the regions it does the same to the other three weight
  matrices and three biases. The first region leaves the first hidden layer in its output array; the second region reads
  it and leaves the class scores and the box offsets. Chained: the two results are the scores and the offsets of the
  second hidden layer of the first hidden layer of the arguments.
-/
import proofs.«169232_j31834297598413_1_alg».proof.Proof.MainRun
import proofs.«169232_j31834297598413_1_alg».proof.Proof.Fc1Value
import proofs.«169232_j31834297598413_1_alg».proof.Proof.Fc2Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## What the first region finds -/

theorem V1_arg0 (c : Dev nD) : V1 m c main_arg0 = m ((c : Thread nD τ).loc main_arg0) :=
  Gen.V1_of m c main_arg0 (by decide)
/-- The converted first weight matrix is the matrix itself: a change of format is the identity on the extended reals. -/
theorem V1_v0 (c : Dev nD) : (V1 m c main_v0 : S12544x1024.Idx → EReal) = (m ((c : Thread nD τ).loc main_arg1) : S12544x1024.Idx → EReal) := by
  show StableHlo.after hostOps0 (W0 m c) (Proc.devRef .tc main_v0) = _
  after_results
  rfl
/-- The reshaped first bias holds the bias: the row's entry at (0, q) is the vector's at q. -/
theorem V1_v1 (c : Dev nD) (q : Fin 1024) : (V1 m c main_v1 : S1x1024.Idx → EReal) (ix2 0 q) = (m ((c : Thread nD τ).loc main_arg2) : S1024.Idx → EReal) (ix1 q) := by
  have e : (V1 m c main_v1 : S1x1024.Idx → EReal) = shapeCast S1x1024 (m ((c : Thread nD τ).loc main_arg2) : S1024.Idx → EReal) shapeCasts_S1024_S1x1024 := by
    show StableHlo.after hostOps0 (W0 m c) (Proc.devRef .tc main_v1) = _
    after_results
    rfl
  rw [e]
  exact shapeCast_a_1a_apply _ _ 0 q

/-! ## What the second region finds -/

/-- An argument no window of the first region stages and no host operation before it writes is, at the first region's
    exit, as launched. -/
theorem W2_arg (c : Dev nD) (b : Ref sig .tc) (h0 : ∀ w, Pipeline.arrRef spec0 w ≠ b) (h1 : b ∉ hostOps0_W) :
    W2 m c (Proc.devRef .tc b) = m ((c : Thread nD τ).loc b) :=
  (W2_of_ne m c b h0).trans (Gen.V1_of m c b h1)

/-- The second region reads, as its activations, the array the first region left. -/
theorem V3_v2 (c : Dev nD) : V3 m c main_v2 = (dat0 (V1 m) c).arrAt 3 cfg0.N :=
  (StableHlo.after_of_writes_sub hostOps1 (W2 m c) hostOps1_writes (by decide : main_v2 ∉ hostOps1_W)).trans (W2_arr m c 3)

/-- A converted weight matrix is the matrix itself. -/
theorem V3_v3 (c : Dev nD) : (V3 m c main_v3 : S1024x1024.Idx → EReal) = (m ((c : Thread nD τ).loc main_arg3) : S1024x1024.Idx → EReal) := by
  show StableHlo.after hostOps1 (W2 m c) (Proc.devRef .tc main_v3) = _
  after_results
  exact W2_arg m c main_arg3 (by decide) (by decide)
/-- A converted weight matrix is the matrix itself. -/
theorem V3_v4 (c : Dev nD) : (V3 m c main_v4 : S1024x4.Idx → EReal) = (m ((c : Thread nD τ).loc main_arg5) : S1024x4.Idx → EReal) := by
  show StableHlo.after hostOps1 (W2 m c) (Proc.devRef .tc main_v4) = _
  after_results
  exact W2_arg m c main_arg5 (by decide) (by decide)
/-- A converted weight matrix is the matrix itself. -/
theorem V3_v5 (c : Dev nD) : (V3 m c main_v5 : S1024x12.Idx → EReal) = (m ((c : Thread nD τ).loc main_arg7) : S1024x12.Idx → EReal) := by
  show StableHlo.after hostOps1 (W2 m c) (Proc.devRef .tc main_v5) = _
  after_results
  exact W2_arg m c main_arg7 (by decide) (by decide)

/-- A reshaped bias row holds the bias. -/
theorem V3_v6 (c : Dev nD) (q : Fin 1024) : (V3 m c main_v6 : S1x1024.Idx → EReal) (ix2 0 q) = (m ((c : Thread nD τ).loc main_arg4) : S1024.Idx → EReal) (ix1 q) := by
  have e : (V3 m c main_v6 : S1x1024.Idx → EReal) = shapeCast S1x1024 (m ((c : Thread nD τ).loc main_arg4) : S1024.Idx → EReal) shapeCasts_S1024_S1x1024 := by
    show StableHlo.after hostOps1 (W2 m c) (Proc.devRef .tc main_v6) = _
    after_results
    exact congrArg (fun z => shapeCast S1x1024 z shapeCasts_S1024_S1x1024) (W2_arg m c main_arg4 (by decide) (by decide))
  rw [e]
  exact shapeCast_a_1a_apply _ _ 0 q
/-- A reshaped bias row holds the bias. -/
theorem V3_v7 (c : Dev nD) (q : Fin 4) : (V3 m c main_v7 : S1x4.Idx → EReal) (ix2 0 q) = (m ((c : Thread nD τ).loc main_arg6) : S4.Idx → EReal) (ix1 q) := by
  have e : (V3 m c main_v7 : S1x4.Idx → EReal) = shapeCast S1x4 (m ((c : Thread nD τ).loc main_arg6) : S4.Idx → EReal) shapeCasts_S4_S1x4 := by
    show StableHlo.after hostOps1 (W2 m c) (Proc.devRef .tc main_v7) = _
    after_results
    exact congrArg (fun z => shapeCast S1x4 z shapeCasts_S4_S1x4) (W2_arg m c main_arg6 (by decide) (by decide))
  rw [e]
  exact shapeCast_a_1a_apply _ _ 0 q
/-- A reshaped bias row holds the bias. -/
theorem V3_v8 (c : Dev nD) (q : Fin 12) : (V3 m c main_v8 : S1x12.Idx → EReal) (ix2 0 q) = (m ((c : Thread nD τ).loc main_arg8) : S12.Idx → EReal) (ix1 q) := by
  have e : (V3 m c main_v8 : S1x12.Idx → EReal) = shapeCast S1x12 (m ((c : Thread nD τ).loc main_arg8) : S12.Idx → EReal) shapeCasts_S12_S1x12 := by
    show StableHlo.after hostOps1 (W2 m c) (Proc.devRef .tc main_v8) = _
    after_results
    exact congrArg (fun z => shapeCast S1x12 z shapeCasts_S12_S1x12) (W2_arg m c main_arg8 (by decide) (by decide))
  rw [e]
  exact shapeCast_a_1a_apply _ _ 0 q

/-! ## The two hidden layers and the two results -/

/-- The first region leaves the first hidden layer of the arguments. -/
theorem first_hidden (c : Dev nD) : (V3 m c main_v2 : S20000x1024.Idx → EReal) = (Cert.Layers.hidden1 (m ((c : Thread nD τ).loc main_arg0) : S20000x12544.Idx → EReal) (m ((c : Thread nD τ).loc main_arg1) : S12544x1024.Idx → EReal) (m ((c : Thread nD τ).loc main_arg2) : S1024.Idx → EReal)) := by
  rw [V3_v2, fc1_final (V1 m) c, V1_arg0, V1_v0]
  exact congrArg Cert.Layers.clamp (Cert.Layers.affineRow_eq_affine _ _ _ _ (V1_v1 m c))

/-- The second hidden layer, as the second region computes it from what it finds. -/
theorem second_hidden (c : Dev nD) :
    Cert.Layers.clamp (Cert.Layers.affineRow (V3 m c main_v2 : S20000x1024.Idx → EReal) (V3 m c main_v3 : S1024x1024.Idx → EReal) (V3 m c main_v6 : S1x1024.Idx → EReal)) = (Cert.Layers.hidden2 (Cert.Layers.hidden1 (m ((c : Thread nD τ).loc main_arg0) : S20000x12544.Idx → EReal) (m ((c : Thread nD τ).loc main_arg1) : S12544x1024.Idx → EReal) (m ((c : Thread nD τ).loc main_arg2) : S1024.Idx → EReal)) (m ((c : Thread nD τ).loc main_arg3) : S1024x1024.Idx → EReal) (m ((c : Thread nD τ).loc main_arg4) : S1024.Idx → EReal)) := by
  rw [first_hidden, V3_v3]
  exact congrArg Cert.Layers.clamp (Cert.Layers.affineRow_eq_affine _ _ _ _ (V3_v6 m c))

/-- The class scores at the end. -/
theorem W4_scores (c : Dev nD) : (W4 m c (Proc.devRef .tc main_v9_0) : S20000x4.Idx → EReal) = Cert.Layers.scores (Cert.Layers.hidden2 (Cert.Layers.hidden1 (m ((c : Thread nD τ).loc main_arg0) : S20000x12544.Idx → EReal) (m ((c : Thread nD τ).loc main_arg1) : S12544x1024.Idx → EReal) (m ((c : Thread nD τ).loc main_arg2) : S1024.Idx → EReal)) (m ((c : Thread nD τ).loc main_arg3) : S1024x1024.Idx → EReal) (m ((c : Thread nD τ).loc main_arg4) : S1024.Idx → EReal)) (m ((c : Thread nD τ).loc main_arg5) : S1024x4.Idx → EReal) (m ((c : Thread nD τ).loc main_arg6) : S4.Idx → EReal) := by
  refine (W4_arr m c 7).trans ?_
  rw [fc2_scores (V3 m) c, second_hidden, V3_v4]
  exact Cert.Layers.affineRow_eq_affine _ _ _ _ (V3_v7 m c)

/-- The box offsets at the end. -/
theorem W4_offsets (c : Dev nD) : (W4 m c (Proc.devRef .tc main_v9_1) : S20000x12.Idx → EReal) = Cert.Layers.offsets (Cert.Layers.hidden2 (Cert.Layers.hidden1 (m ((c : Thread nD τ).loc main_arg0) : S20000x12544.Idx → EReal) (m ((c : Thread nD τ).loc main_arg1) : S12544x1024.Idx → EReal) (m ((c : Thread nD τ).loc main_arg2) : S1024.Idx → EReal)) (m ((c : Thread nD τ).loc main_arg3) : S1024x1024.Idx → EReal) (m ((c : Thread nD τ).loc main_arg4) : S1024.Idx → EReal)) (m ((c : Thread nD τ).loc main_arg7) : S1024x12.Idx → EReal) (m ((c : Thread nD τ).loc main_arg8) : S12.Idx → EReal) := by
  refine (W4_arr m c 8).trans ?_
  rw [fc2_offsets (V3 m) c, second_hidden, V3_v5]
  exact Cert.Layers.affineRow_eq_affine _ _ _ _ (V3_v8 m c)

/-- THE KERNEL'S RUN with its results named: every weakly fair execution terminates with the first result the class scores
    and the second the box offsets of the launch arguments, and the arguments as launched. -/
theorem kernel_layers : θ_run defs (onTc (τ := τ) (main (F := Ideal))) ⟨m, fun _ => 0, ρ⟩ (fun r => ∀ c : Dev nD,
      r.2.mem ((c.tc : Thread nD τ).loc main_v9_0) = (Cert.Layers.scores (Cert.Layers.hidden2 (Cert.Layers.hidden1 (m ((c : Thread nD τ).loc main_arg0) : S20000x12544.Idx → EReal) (m ((c : Thread nD τ).loc main_arg1) : S12544x1024.Idx → EReal) (m ((c : Thread nD τ).loc main_arg2) : S1024.Idx → EReal)) (m ((c : Thread nD τ).loc main_arg3) : S1024x1024.Idx → EReal) (m ((c : Thread nD τ).loc main_arg4) : S1024.Idx → EReal)) (m ((c : Thread nD τ).loc main_arg5) : S1024x4.Idx → EReal) (m ((c : Thread nD τ).loc main_arg6) : S4.Idx → EReal) : S20000x4.Idx → EReal)
      ∧ r.2.mem ((c.tc : Thread nD τ).loc main_v9_1) = (Cert.Layers.offsets (Cert.Layers.hidden2 (Cert.Layers.hidden1 (m ((c : Thread nD τ).loc main_arg0) : S20000x12544.Idx → EReal) (m ((c : Thread nD τ).loc main_arg1) : S12544x1024.Idx → EReal) (m ((c : Thread nD τ).loc main_arg2) : S1024.Idx → EReal)) (m ((c : Thread nD τ).loc main_arg3) : S1024x1024.Idx → EReal) (m ((c : Thread nD τ).loc main_arg4) : S1024.Idx → EReal)) (m ((c : Thread nD τ).loc main_arg7) : S1024x12.Idx → EReal) (m ((c : Thread nD τ).loc main_arg8) : S12.Idx → EReal) : S20000x12.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v9_0 (by decide))).trans (W4_scores m c),
    (h c _ (mem_uc main_v9_1 (by decide))).trans (W4_offsets m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

end Cert.KernelIdeal.Hand

end
-- ==== Proof.RefValue.lean ====
/-
  The reference's run at the extended reals: its two results are the class scores and the box offsets of the argument
  arrays, entry by entry: each matrix product a sum over the contracted index, each bias broadcast down the rows, each
  rectifier a maximum with the zero word.
-/
import proofs.«169232_j31834297598413_1_alg».proof.Defs
import proofs.«169232_j31834297598413_1_alg».proof.Proof.Gen.ReferenceIdeal.Run
import proofs.«169232_j31834297598413_1_alg».proof.Proof.Gen.ReferenceIdeal.Read
import proofs.«169232_j31834297598413_1_alg».proof.Proof.Layers
import proofs.«169232_j31834297598413_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx
open Idealize.SL Idealize.SL.Sem

open Cert.ReferenceIdeal.Read

/-! ## The first hidden layer

Entry (r, q) of the rectified first layer is max (∑ k, x(r, k) * W1(k, q) + b1(q)) 0, the zero being the zero word. -/

/-- The left operand of the product is read at (row of i, k), the right at (k, column of i), and the bias, broadcast first to
    a row and then down the rows, at the column of i. -/
theorem lidx_v0 (i : S20000x1024.Idx) (k : Fin 12544) : lidx_main_v0 i k = ix2 (i 0) k :=
  funext fun a => Fin.ext (by match a with | ⟨0, _⟩ => rfl | ⟨1, _⟩ => rfl)
theorem ridx_v0 (i : S20000x1024.Idx) (k : Fin 12544) : ridx_main_v0 i k = ix2 k (i 1) :=
  funext fun a => Fin.ext (by match a with | ⟨0, _⟩ => rfl | ⟨1, _⟩ => rfl)
theorem bias_v2 (i : S20000x1024.Idx) : idx_main_v1 (idx_main_v2 i) = ix1 (i 1) :=
  funext fun a => Fin.ext (by match a with | ⟨0, _⟩ => rfl)

/-- The rectified sum of the first product and its broadcast bias is the first hidden layer: on the extended reals the
    sum is +, the maximum is max, and the product's entry is the sum over the contracted index. -/
theorem v4_eq (x0 : (⟨S20000x12544, .f32⟩ : BufTy).Contents (Elt Ideal)) (x1 : (⟨S12544x1024, .f32⟩ : BufTy).Contents (Elt Ideal)) (x2 : (⟨S1024, .f32⟩ : BufTy).Contents (Elt Ideal)) :
    val_main_v4 (F := Ideal) x0 x1 x2 = Cert.Layers.hidden1 x0 x1 x2 := by
  funext i
  rw [val_main_v4_apply, val_main_v3_apply, val_main_v0_apply, val_main_v2_apply, val_main_v1_apply,
    val_main_call0_v0_apply, val_main_call0_cst_apply]
  simp only [Ideal.maximumf_def, Ideal.addf_def, Ideal.ofBits_def, lidx_v0, ridx_v0, bias_v2]
  rfl

/-! ## The second hidden layer

The same dense layer and clamp, applied to the first hidden layer with W2 and b2. -/

/-- The left operand of the product is read at (row of i, k), the right at (k, column of i), and the bias, broadcast first to
    a row and then down the rows, at the column of i. -/
theorem lidx_v5 (i : S20000x1024.Idx) (k : Fin 1024) : lidx_main_v5 i k = ix2 (i 0) k :=
  funext fun a => Fin.ext (by match a with | ⟨0, _⟩ => rfl | ⟨1, _⟩ => rfl)
theorem ridx_v5 (i : S20000x1024.Idx) (k : Fin 1024) : ridx_main_v5 i k = ix2 k (i 1) :=
  funext fun a => Fin.ext (by match a with | ⟨0, _⟩ => rfl | ⟨1, _⟩ => rfl)
theorem bias_v7 (i : S20000x1024.Idx) : idx_main_v6 (idx_main_v7 i) = ix1 (i 1) :=
  funext fun a => Fin.ext (by match a with | ⟨0, _⟩ => rfl)

/-- The rectified sum of the second product and its broadcast bias is the second hidden layer of the first. -/
theorem v9_eq (x0 : (⟨S20000x12544, .f32⟩ : BufTy).Contents (Elt Ideal)) (x1 : (⟨S12544x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal)) :
    val_main_v9 (F := Ideal) x0 x1 x2 x3 x4 = Cert.Layers.hidden2 (Cert.Layers.hidden1 x0 x1 x2) x3 x4 := by
  funext i
  rw [val_main_v9_apply, val_main_v8_apply, val_main_v5_apply, val_main_v7_apply, val_main_v6_apply,
    val_main_call1_v0_apply, val_main_call1_cst_apply, v4_eq]
  simp only [Ideal.maximumf_def, Ideal.addf_def, Ideal.ofBits_def, lidx_v5, ridx_v5, bias_v7]
  rfl

/-! ## The two results

Each is a dense layer of the second hidden layer, with no clamp: the class scores with Wc, bc (4 columns) and the box
offsets with Wr, br (12 columns). -/

/-- The left operand of the product is read at (row of i, k), the right at (k, column of i), and the bias, broadcast first to
    a row and then down the rows, at the column of i. -/
theorem lidx_v10 (i : S20000x4.Idx) (k : Fin 1024) : lidx_main_v10 i k = ix2 (i 0) k :=
  funext fun a => Fin.ext (by match a with | ⟨0, _⟩ => rfl | ⟨1, _⟩ => rfl)
theorem ridx_v10 (i : S20000x4.Idx) (k : Fin 1024) : ridx_main_v10 i k = ix2 k (i 1) :=
  funext fun a => Fin.ext (by match a with | ⟨0, _⟩ => rfl | ⟨1, _⟩ => rfl)
theorem bias_v12 (i : S20000x4.Idx) : idx_main_v11 (idx_main_v12 i) = ix1 (i 1) :=
  funext fun a => Fin.ext (by match a with | ⟨0, _⟩ => rfl)

/-- The sum of the scores' product and its broadcast bias is the scores' dense layer of the second hidden layer. -/
theorem v13_eq (x0 : (⟨S20000x12544, .f32⟩ : BufTy).Contents (Elt Ideal)) (x1 : (⟨S12544x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal)) (x5 : (⟨S1024x4, .f32⟩ : BufTy).Contents (Elt Ideal)) (x6 : (⟨S4, .f32⟩ : BufTy).Contents (Elt Ideal)) :
    val_main_v13 (F := Ideal) x0 x1 x2 x3 x4 x5 x6
      = Cert.Layers.scores (Cert.Layers.hidden2 (Cert.Layers.hidden1 x0 x1 x2) x3 x4) x5 x6 := by
  funext i
  rw [val_main_v13_apply, val_main_v10_apply, val_main_v12_apply, val_main_v11_apply, v9_eq]
  simp only [Ideal.addf_def, lidx_v10, ridx_v10, bias_v12]
  rfl

/-- The left operand of the product is read at (row of i, k), the right at (k, column of i), and the bias, broadcast first to
    a row and then down the rows, at the column of i. -/
theorem lidx_v14 (i : S20000x12.Idx) (k : Fin 1024) : lidx_main_v14 i k = ix2 (i 0) k :=
  funext fun a => Fin.ext (by match a with | ⟨0, _⟩ => rfl | ⟨1, _⟩ => rfl)
theorem ridx_v14 (i : S20000x12.Idx) (k : Fin 1024) : ridx_main_v14 i k = ix2 k (i 1) :=
  funext fun a => Fin.ext (by match a with | ⟨0, _⟩ => rfl | ⟨1, _⟩ => rfl)
theorem bias_v16 (i : S20000x12.Idx) : idx_main_v15 (idx_main_v16 i) = ix1 (i 1) :=
  funext fun a => Fin.ext (by match a with | ⟨0, _⟩ => rfl)

/-- The sum of the offsets' product and its broadcast bias is the offsets' dense layer of the second hidden layer. -/
theorem v17_eq (x0 : (⟨S20000x12544, .f32⟩ : BufTy).Contents (Elt Ideal)) (x1 : (⟨S12544x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal)) (x7 : (⟨S1024x12, .f32⟩ : BufTy).Contents (Elt Ideal)) (x8 : (⟨S12, .f32⟩ : BufTy).Contents (Elt Ideal)) :
    val_main_v17 (F := Ideal) x0 x1 x2 x3 x4 x7 x8
      = Cert.Layers.offsets (Cert.Layers.hidden2 (Cert.Layers.hidden1 x0 x1 x2) x3 x4) x7 x8 := by
  funext i
  rw [val_main_v17_apply, val_main_v14_apply, val_main_v16_apply, val_main_v15_apply, v9_eq]
  simp only [Ideal.addf_def, lidx_v14, ridx_v14, bias_v16]
  rfl

/-- The reference's run with its two results named as functions of the argument arrays. -/
theorem run_layers (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = (Cert.Layers.scores (Cert.Layers.hidden2 (Cert.Layers.hidden1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) : Cert.ReferenceIdeal.S20000x4.Idx → EReal)
          ∧ r.2.mem ((c.tc : Thread Cert.ReferenceIdeal.nD Cert.ReferenceIdeal.τ).loc Cert.ReferenceIdeal.main_v17) = (Cert.Layers.offsets (Cert.Layers.hidden2 (Cert.Layers.hidden1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) : Cert.ReferenceIdeal.S20000x12.Idx → EReal)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run (Cert.ReferenceIdeal.defs (F := Ideal)) _ _).mono
    (fun _ h c => ⟨(h c).1.trans ((val_main_v13_eq _ _ _ _ _ _ _).trans (v13_eq _ _ _ _ _ _ _)),
      (h c).2.1.trans ((val_main_v17_eq _ _ _ _ _ _ _).trans (v17_eq _ _ _ _ _ _ _)),
      (h c).2.2⟩)
    (Cert.ReferenceIdeal.Value.run (F := Ideal) m' g')

end Cert.ReferenceIdeal.RefValue

end
-- ==== Proof.lean ====
/-
  The certificate of a two-layer head with two outputs against its plain reference, over the extended reals.

  The kernel program runs two tiled regions. The first computes the first hidden layer, relu(x W1 + b1), tiling the rows
  by 1000 and the 12544-long contracted axis by 1792: an accumulator kept across the 7 tiles of a row tile starts from
  zero, takes each tile's partial product, and at the last tile the bias is added, the result clamped at zero and stored.
  The second, tiling the rows by 2000, computes the second hidden layer relu(h1 W2 + b2) and from it the class scores
  h2 Wc + bc and the box offsets h2 Wr + br. The reference computes the same four layers with whole matrix products.

  On the extended reals a change of float format is the identity, a matrix product is the plain sum over the contracted
  index, and addition is commutative and associative, so the tile-by-tile accumulation is the whole sum (a sum over
  7 * 1792 indices is the sum over the tiles of the sums inside each tile) and both programs compute, entry by entry,
  Layers.scores and Layers.offsets of the arguments. No law used needs the inputs to be finite: the precondition is not opened.

  The frames: each kernel program terminates without fault and leaves its arguments as launched (the run of its two
  regions, with the accumulator's contents carried between grid points in the first region's invariant); the reference's
  frame is its run with the results dropped. The idealization rewrote nothing, so there is nothing to preserve.
-/
import proofs.«169232_j31834297598413_1_alg».proof.Defs
import proofs.«169232_j31834297598413_1_alg».proof.Proof.Gen.Kernel
import proofs.«169232_j31834297598413_1_alg».proof.Proof.Gen.KernelIdeal
import proofs.«169232_j31834297598413_1_alg».proof.Proof.Gen.ReferenceIdeal
import proofs.«169232_j31834297598413_1_alg».proof.Proof.Gen.Pre_finite_inputs
import proofs.«169232_j31834297598413_1_alg».proof.Proof.BitsMainRun
import proofs.«169232_j31834297598413_1_alg».proof.Proof.KernelValue
import proofs.«169232_j31834297598413_1_alg».proof.Proof.RefValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the nine arguments both programs end with the class scores and the box offsets of those
    arguments: the kernel's run names them over its own memory, the reference's over its own, and the agreement makes the
    two terms one. -/
theorem algebraic : Cert.algebraic_KernelIdeal_ReferenceIdeal := by
  intro m ρ m' ρ' _ hagree
  refine ⟨_, _, Cert.KernelIdeal.Hand.kernel_layers m ρ, ?_⟩
  refine (θ_run Cert.ReferenceIdeal.defs _ _).mono (fun _ h c => ?_) (Cert.ReferenceIdeal.RefValue.run_layers m' ρ')
  obtain ⟨h13, h17, hargs⟩ := h c
  obtain ⟨e0, e1, e2, e3, e4, e5, e6, e7, e8⟩ := hagree c
  refine ⟨h13.trans ?_, h17.trans ?_, hargs⟩
  · rw [e0, e1, e2, e3, e4, e5, e6]
  · rw [e0, e1, e2, e3, e4, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
